-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x4 : Shape := ⟨2, ![2000000, 4]⟩
abbrev S2000000x1 : Shape := ⟨2, ![2000000, 1]⟩
abbrev S_ : Shape := ⟨0, ![]⟩

class Facts : Prop where
  slices_S2000000x4_S2000000x1_0_0 : S2000000x4.Slices ![0, 0] S2000000x1
  slices_S2000000x4_S2000000x1_0_1 : S2000000x4.Slices ![0, 1] S2000000x1
  slices_S2000000x4_S2000000x1_0_2 : S2000000x4.Slices ![0, 2] S2000000x1
  slices_S2000000x4_S2000000x1_0_3 : S2000000x4.Slices ![0, 3] S2000000x1
  bcast_S_S2000000x1 : S_.BroadcastsInDim S2000000x1 (![] : Fin 0 → Fin S2000000x1.rank)
  bcast_S_S2000000x4 : S_.BroadcastsInDim S2000000x4 (![] : Fin 0 → Fin S2000000x4.rank)
  reducesTo_S2000000x4_S_d0_1 : S2000000x4.ReducesTo [0, 1] S_
  h_S_ : 0 < S_.numel

variable [Facts]

def fn_part1 {F : FTy → Type} [FloatOps F] (main_arg0 : FVec F S2000000x4 .f32) (main_v2 : IVec S2000000x1 32) (main_v3 : IVec S2000000x1 32) (main_v17 : IVec S2000000x1 1) (main_c_4 : IVec S_ 32) : IVec S2000000x1 1 :=
  let main_v18 : IVec S2000000x1 32 := broadcastInDim S2000000x1 ![] bcast_S_S2000000x1 main_c_4
  let main_v19 : IVec S2000000x1 1 := cmpi .slt main_v2 main_v18
  let main_v20 : IVec S2000000x1 1 := andi main_v17 main_v19
  let main_c_5 : IVec S_ 32 := constantI S_ 32 0#32
  let main_v21 : IVec S2000000x1 32 := broadcastInDim S2000000x1 ![] bcast_S_S2000000x1 main_c_5
  let main_v22 : IVec S2000000x1 1 := cmpi .sge main_v3 main_v21
  let main_v23 : IVec S2000000x1 1 := andi main_v20 main_v22
  let main_c_6 : IVec S_ 32 := constantI S_ 32 352#32
  let main_v24 : IVec S2000000x1 32 := broadcastInDim S2000000x1 ![] bcast_S_S2000000x1 main_c_6
  let main_v25 : IVec S2000000x1 1 := cmpi .slt main_v3 main_v24
  let main_v26 : IVec S2000000x1 1 := andi main_v23 main_v25
  let main_v27 : FVec F S2000000x4 .f32 := Host.absf main_arg0
  let main_cst : FVec F S_ .f32 := constant S_ .f32 0x7F800000#32
  let main_v28 : FVec F S2000000x4 .f32 := broadcastInDim S2000000x4 ![] bcast_S_S2000000x4 main_cst
  let main_v29 : IVec S2000000x4 1 := cmpf .olt main_v27 main_v28
  let main_c_7 : IVec S_ 1 := constantI S_ 1 1#1
  let main_v30 : IVec S_ 1 := (fun x v => Host.reduce IntOp.andi x v reducesTo_S2000000x4_S_d0_1 h_S_) main_v29 main_c_7
  let main_v31 : IVec S2000000x1 1 := broadcastInDim S2000000x1 ![] bcast_S_S2000000x1 main_v30
  let main_v32 : IVec S2000000x1 1 := andi main_v31 main_v26
  main_v32

def fn {F : FTy → Type} [FloatOps F] (main_arg0 : FVec F S2000000x4 .f32) (main_arg1 : IVec S2000000x4 32) : IVec S2000000x1 1 :=
  let main_v0 : IVec S2000000x1 32 := (extractStridedSlice S2000000x1 ![0, 0] · slices_S2000000x4_S2000000x1_0_0) main_arg1
  let main_v1 : IVec S2000000x1 32 := (extractStridedSlice S2000000x1 ![0, 1] · slices_S2000000x4_S2000000x1_0_1) main_arg1
  let main_v2 : IVec S2000000x1 32 := (extractStridedSlice S2000000x1 ![0, 2] · slices_S2000000x4_S2000000x1_0_2) main_arg1
  let main_v3 : IVec S2000000x1 32 := (extractStridedSlice S2000000x1 ![0, 3] · slices_S2000000x4_S2000000x1_0_3) main_arg1
  let main_c : IVec S_ 32 := constantI S_ 32 0#32
  let main_v4 : IVec S2000000x1 32 := broadcastInDim S2000000x1 ![] bcast_S_S2000000x1 main_c
  let main_v5 : IVec S2000000x1 1 := cmpi .sge main_v0 main_v4
  let main_c_0 : IVec S_ 32 := constantI S_ 32 4#32
  let main_v6 : IVec S2000000x1 32 := broadcastInDim S2000000x1 ![] bcast_S_S2000000x1 main_c_0
  let main_v7 : IVec S2000000x1 1 := cmpi .slt main_v0 main_v6
  let main_v8 : IVec S2000000x1 1 := andi main_v5 main_v7
  let main_c_1 : IVec S_ 32 := constantI S_ 32 0#32
  let main_v9 : IVec S2000000x1 32 := broadcastInDim S2000000x1 ![] bcast_S_S2000000x1 main_c_1
  let main_v10 : IVec S2000000x1 1 := cmpi .sge main_v1 main_v9
  let main_v11 : IVec S2000000x1 1 := andi main_v8 main_v10
  let main_c_2 : IVec S_ 32 := constantI S_ 32 1#32
  let main_v12 : IVec S2000000x1 32 := broadcastInDim S2000000x1 ![] bcast_S_S2000000x1 main_c_2
  let main_v13 : IVec S2000000x1 1 := cmpi .slt main_v1 main_v12
  let main_v14 : IVec S2000000x1 1 := andi main_v11 main_v13
  let main_c_3 : IVec S_ 32 := constantI S_ 32 0#32
  let main_v15 : IVec S2000000x1 32 := broadcastInDim S2000000x1 ![] bcast_S_S2000000x1 main_c_3
  let main_v16 : IVec S2000000x1 1 := cmpi .sge main_v2 main_v15
  let main_v17 : IVec S2000000x1 1 := andi main_v14 main_v16
  let main_c_4 : IVec S_ 32 := constantI S_ 32 400#32
  fn_part1 (F := F) main_arg0 main_v2 main_v3 main_v17 main_c_4
-- ==== Kernel.lean ====
abbrev S2000000x4 : Shape := ⟨2, ![2000000, 4]⟩
abbrev S4x1600x352 : Shape := ⟨3, ![4, 1600, 352]⟩
abbrev S1600x352 : Shape := ⟨2, ![1600, 352]⟩
abbrev S2000x4 : Shape := ⟨2, ![2000, 4]⟩
abbrev S2000x1 : Shape := ⟨2, ![2000, 1]⟩
abbrev S2000 : Shape := ⟨1, ![2000]⟩
abbrev S1600x2000 : Shape := ⟨2, ![1600, 2000]⟩
abbrev S1x2000 : Shape := ⟨2, ![1, 2000]⟩
abbrev S2000x352 : Shape := ⟨2, ![2000, 352]⟩
abbrev S1x1600x352 : Shape := ⟨3, ![1, 1600, 352]⟩
abbrev S1600x352x4 : Shape := ⟨3, ![1600, 352, 4]⟩
abbrev S563200x4 : Shape := ⟨2, ![563200, 4]⟩
abbrev S563200 : Shape := ⟨1, ![563200]⟩
abbrev S_ : Shape := ⟨0, ![]⟩
abbrev S563200x1 : Shape := ⟨2, ![563200, 1]⟩

abbrev nBuf : Space → Nat
  | .hbm => 13
  | .vmem => 6
  | .smem => 0
  | _ => 0

abbrev bufTy : (tb : Table) → Fin (tcTables nBuf tb) → BufTy
  | .hbm, ⟨0, _⟩ => ⟨S2000000x4, .f32⟩
  | .hbm, ⟨1, _⟩ => ⟨S2000000x4, .i32⟩
  | .hbm, ⟨2, _⟩ => ⟨S4x1600x352, .f32⟩
  | .hbm, ⟨3, _⟩ => ⟨S1600x352, .f32⟩
  | .hbm, ⟨4, _⟩ => ⟨S1600x352x4, .f32⟩
  | .hbm, ⟨5, _⟩ => ⟨S563200x4, .f32⟩
  | .hbm, ⟨6, _⟩ => ⟨S563200, .f32⟩
  | .hbm, ⟨7, _⟩ => ⟨S_, .f32⟩
  | .hbm, ⟨8, _⟩ => ⟨S563200, .f32⟩
  | .hbm, ⟨9, _⟩ => ⟨S563200, .f32⟩
  | .hbm, ⟨10, _⟩ => ⟨S563200x1, .f32⟩
  | .hbm, ⟨11, _⟩ => ⟨S563200x4, .f32⟩
  | .hbm, ⟨12, _⟩ => ⟨S563200x4, .f32⟩
  | .local _ .vmem, ⟨0, _⟩ => ⟨S2000x4, .i32⟩
  | .local _ .vmem, ⟨1, _⟩ => ⟨S2000x4, .i32⟩
  | .local _ .vmem, ⟨2, _⟩ => ⟨S2000x4, .f32⟩
  | .local _ .vmem, ⟨3, _⟩ => ⟨S2000x4, .f32⟩
  | .local _ .vmem, ⟨4, _⟩ => ⟨S4x1600x352, .f32⟩
  | .local _ .vmem, ⟨5, _⟩ => ⟨S1600x352, .f32⟩
  | _, _ => ⟨S2000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![1000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1600x352 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1600x352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S4x1600x352_S4x1600x352_0_0_0 : ∀ a, (![0, 0, 0] : Fin 3 → Nat) a + S4x1600x352.size a ≤ S4x1600x352.size a
  h_S4x1600x352 : 0 < S4x1600x352.numel
  inb_S1600x352_S1600x352_0_0 : ∀ a, (![0, 0] : Fin 2 → Nat) a + S1600x352.size a ≤ S1600x352.size a
  h_S1600x352 : 0 < S1600x352.numel
  inb_S2000x4_S2000x4_0_0 : ∀ a, (![0, 0] : Fin 2 → Nat) a + S2000x4.size a ≤ S2000x4.size a
  h_S2000x4 : 0 < S2000x4.numel
  slices_S2000x4_o0_0_S2000x1 : S2000x4.Slices ![0, 0] S2000x1
  shapeCasts_S2000x1_S2000 : S2000x1.ShapeCasts S2000
  slices_S2000x4_o0_1_S2000x1 : S2000x4.Slices ![0, 1] S2000x1
  slices_S2000x4_o0_2_S2000x1 : S2000x4.Slices ![0, 2] S2000x1
  slices_S2000x4_o0_3_S2000x1 : S2000x4.Slices ![0, 3] S2000x1
  iota_S1600x2000_d0_w32 : S1600x2000.Iotas .tc 32 [0]
  shapeCasts_S2000_S1x2000 : S2000.ShapeCasts S1x2000
  broadcasts_S1x2000_S1600x2000 : S1x2000.Broadcasts S1600x2000
  natLt_1_32 : 1 < 32
  bitsLt_bf16_f32 : FTy.bits .bf16 < FTy.bits .f32
  iota_S2000x352_d1_w32 : S2000x352.Iotas .tc 32 [1]
  shapeCasts_S2000_S2000x1 : S2000.ShapeCasts S2000x1
  broadcasts_S2000x1_S2000x352 : S2000x1.Broadcasts S2000x352
  shapeCasts_S1600x352_S1600x352 : S1600x352.ShapeCasts S1600x352
  inb_S4x1600x352_S1x1600x352_0_0_0 : ∀ a, (![0, 0, 0] : Fin 3 → Nat) a + S1x1600x352.size a ≤ S4x1600x352.size a
  h_S1x1600x352 : 0 < S1x1600x352.numel
  shapeCasts_S1x1600x352_S1600x352 : S1x1600x352.ShapeCasts S1600x352
  shapeCasts_S1600x352_S1x1600x352 : S1600x352.ShapeCasts S1x1600x352
  inb_S4x1600x352_S1x1600x352_1_0_0 : ∀ a, (![1, 0, 0] : Fin 3 → Nat) a + S1x1600x352.size a ≤ S4x1600x352.size a
  inb_S4x1600x352_S1x1600x352_2_0_0 : ∀ a, (![2, 0, 0] : Fin 3 → Nat) a + S1x1600x352.size a ≤ S4x1600x352.size a
  inb_S4x1600x352_S1x1600x352_3_0_0 : ∀ a, (![3, 0, 0] : Fin 3 → Nat) a + S1x1600x352.size a ≤ S4x1600x352.size a
  transposes_S4x1600x352_S1600x352x4_1_2_0 : S4x1600x352.Transposes [1, 2, 0] S1600x352x4
  shapeCasts_S1600x352x4_S563200x4 : S1600x352x4.ShapeCasts S563200x4
  shapeCasts_S1600x352_S563200 : S1600x352.ShapeCasts S563200
  bcast_S_S563200 : S_.BroadcastsInDim S563200 (![] : Fin 0 → Fin S563200.rank)
  bcast_S563200_S563200x1_0 : S563200.BroadcastsInDim S563200x1 (![0] : Fin 1 → Fin S563200x1.rank)
  bcast_S563200x1_S563200x4_0_1 : S563200x1.BroadcastsInDim S563200x4 (![0, 1] : Fin 2 → Fin S563200x4.rank)
  dot_S1600x2000_S2000x352_S1600x352_1_0_0_1_n_n_wf : DotDims.WF S1600x2000 S2000x352 S1600x352 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x4.size a ≤ S2000000x4.size a
  hwx0_0 : ∀ i : grid0.Coords, EltTy.bits .i32 = 32 ∨ (Rect.block (s := S2000000x4) S2000x4.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x4.size a ≤ S2000000x4.size a
  hwx0_1 : ∀ i : grid0.Coords, EltTy.bits .f32 = 32 ∨ (Rect.block (s := S2000000x4) S2000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1600x352.size a ≤ S4x1600x352.size a
  hwx0_2 : ∀ i : grid0.Coords, EltTy.bits .f32 = 32 ∨ (Rect.block (s := S4x1600x352) S4x1600x352.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1600x352.size a ≤ S1600x352.size a
  hwx0_3 : ∀ i : grid0.Coords, EltTy.bits .f32 = 32 ∨ (Rect.block (s := S1600x352) S1600x352.size (cc0_transform_3 i) (hinb0_3 i)).WholeWords (EltTy.packing .f32)

variable [Facts₀]

def dot_S1600x2000_S2000x352_S1600x352_1_0_0_1_n_n : DotDims S1600x2000 S2000x352 S1600x352 where
  lhsContracting := [1]
  rhsContracting := [0]
  lhsNonContracting := [0]
  rhsNonContracting := [1]
  lhsBatch := []
  rhsBatch := []
  wf := dot_S1600x2000_S2000x352_S1600x352_1_0_0_1_n_n_wf

abbrev win0_0 : Pipeline.Window sig grid0 :=
  Pipeline.Window.ofSpec (Memref.whole main_arg1) S2000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S4x1600x352.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1600x352.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2000000x4 : Shape := ⟨2, ![2000000, 4]⟩
abbrev S2000000x1 : Shape := ⟨2, ![2000000, 1]⟩
abbrev S2000000 : Shape := ⟨1, ![2000000]⟩
abbrev S_ : Shape := ⟨0, ![]⟩
abbrev S563200x4 : Shape := ⟨2, ![563200, 4]⟩
abbrev S563200 : Shape := ⟨1, ![563200]⟩
abbrev S563200x1 : Shape := ⟨2, ![563200, 1]⟩

abbrev nBuf : Space → Nat
  | .hbm => 38
  | .vmem => 0
  | .smem => 0
  | _ => 0

abbrev bufTy : (tb : Table) → Fin (tcTables nBuf tb) → BufTy
  | .hbm, ⟨0, _⟩ => ⟨S2000000x4, .f32⟩
  | .hbm, ⟨1, _⟩ => ⟨S2000000x4, .i32⟩
  | .hbm, ⟨2, _⟩ => ⟨S2000000x1, .i32⟩
  | .hbm, ⟨3, _⟩ => ⟨S2000000, .i32⟩
  | .hbm, ⟨4, _⟩ => ⟨S2000000x1, .i32⟩
  | .hbm, ⟨5, _⟩ => ⟨S2000000, .i32⟩
  | .hbm, ⟨6, _⟩ => ⟨S2000000x1, .i32⟩
  | .hbm, ⟨7, _⟩ => ⟨S2000000, .i32⟩
  | .hbm, ⟨8, _⟩ => ⟨S2000000x1, .i32⟩
  | .hbm, ⟨9, _⟩ => ⟨S2000000, .i32⟩
  | .hbm, ⟨10, _⟩ => ⟨S_, .i32⟩
  | .hbm, ⟨11, _⟩ => ⟨S2000000, .i32⟩
  | .hbm, ⟨12, _⟩ => ⟨S2000000, .i32⟩
  | .hbm, ⟨13, _⟩ => ⟨S2000000, .i32⟩
  | .hbm, ⟨14, _⟩ => ⟨S_, .i32⟩
  | .hbm, ⟨15, _⟩ => ⟨S2000000, .i32⟩
  | .hbm, ⟨16, _⟩ => ⟨S2000000, .i32⟩
  | .hbm, ⟨17, _⟩ => ⟨S2000000, .i32⟩
  | .hbm, ⟨18, _⟩ => ⟨S_, .i32⟩
  | .hbm, ⟨19, _⟩ => ⟨S2000000, .i32⟩
  | .hbm, ⟨20, _⟩ => ⟨S2000000, .i32⟩
  | .hbm, ⟨21, _⟩ => ⟨S2000000, .i32⟩
  | .hbm, ⟨22, _⟩ => ⟨S_, .f32⟩
  | .hbm, ⟨23, _⟩ => ⟨S563200x4, .f32⟩
  | .hbm, ⟨24, _⟩ => ⟨S2000000x1, .i32⟩
  | .hbm, ⟨25, _⟩ => ⟨S563200x4, .f32⟩
  | .hbm, ⟨26, _⟩ => ⟨S_, .f32⟩
  | .hbm, ⟨27, _⟩ => ⟨S2000000, .f32⟩
  | .hbm, ⟨28, _⟩ => ⟨S_, .f32⟩
  | .hbm, ⟨29, _⟩ => ⟨S563200, .f32⟩
  | .hbm, ⟨30, _⟩ => ⟨S2000000x1, .i32⟩
  | .hbm, ⟨31, _⟩ => ⟨S563200, .f32⟩
  | .hbm, ⟨32, _⟩ => ⟨S_, .f32⟩
  | .hbm, ⟨33, _⟩ => ⟨S563200, .f32⟩
  | .hbm, ⟨34, _⟩ => ⟨S563200, .f32⟩
  | .hbm, ⟨35, _⟩ => ⟨S563200x1, .f32⟩
  | .hbm, ⟨36, _⟩ => ⟨S563200x4, .f32⟩
  | .hbm, ⟨37, _⟩ => ⟨S563200x4, .f32⟩
  | _, _ => ⟨S2000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  slices_S2000000x4_S2000000x1_0_0 : S2000000x4.Slices ![0, 0] S2000000x1
  shapeCasts_S2000000x1_S2000000 : S2000000x1.ShapeCasts S2000000
  slices_S2000000x4_S2000000x1_0_1 : S2000000x4.Slices ![0, 1] S2000000x1
  slices_S2000000x4_S2000000x1_0_2 : S2000000x4.Slices ![0, 2] S2000000x1
  slices_S2000000x4_S2000000x1_0_3 : S2000000x4.Slices ![0, 3] S2000000x1
  bcast_S_S2000000 : S_.BroadcastsInDim S2000000 (![] : Fin 0 → Fin S2000000.rank)
  bcast_S_S563200x4 : S_.BroadcastsInDim S563200x4 (![] : Fin 0 → Fin S563200x4.rank)
  bcast_S2000000_S2000000x1_0 : S2000000.BroadcastsInDim S2000000x1 (![0] : Fin 1 → Fin S2000000x1.rank)
  bcast_S_S563200 : S_.BroadcastsInDim S563200 (![] : Fin 0 → Fin S563200.rank)
  bcast_S563200_S563200x1_0 : S563200.BroadcastsInDim S563200x1 (![0] : Fin 1 → Fin S563200x1.rank)
  bcast_S563200x1_S563200x4_0_1 : S563200x1.BroadcastsInDim S563200x4 (![0, 1] : Fin 2 → Fin S563200x4.rank)
  scatter_S563200x4_S2000000x1_S2000000x4_1_0_0_1_wf : ScatterDims.WF S563200x4 S2000000x1 S2000000x4 [1] [0] [0] 1
  scatter_S563200_S2000000x1_S2000000_n_0_0_1_wf : ScatterDims.WF S563200 S2000000x1 S2000000 [] [0] [0] 1

variable [Facts₀]

def scatter_S563200x4_S2000000x1_S2000000x4_1_0_0_1 : ScatterDims S563200x4 S2000000x1 S2000000x4 where
  updateWindowDims := [1]
  insertedWindowDims := [0]
  scatterDimsToOperandDims := [0]
  indexVectorDim := 1
  wf := scatter_S563200x4_S2000000x1_S2000000x4_1_0_0_1_wf
def scatter_S563200_S2000000x1_S2000000_n_0_0_1 : ScatterDims S563200 S2000000x1 S2000000 where
  updateWindowDims := []
  insertedWindowDims := [0]
  scatterDimsToOperandDims := [0]
  indexVectorDim := 1
  wf := scatter_S563200_S2000000x1_S2000000_n_0_0_1_wf

class Facts : Prop extends Facts₀ where

variable [Facts]
-- ==== Proof.LibScatterGather.lean ====
/- The host's accumulating scatter and its row gather, read at one index, for the shapes that a segment sum
   over a list of edges and a row lookup by a list of edges take: a vector or a matrix of rows indexed by an
   [E × 1] column of signed index words.

   An update whose index word, read signed, lies in [0, N) is added into that row; any other update is dropped.
   A gathered row is the row at the index word read signed and clamped into [0, N − 1]. -/
import Idealize.ShloMosaic.PureOps.Ideal
import Idealize.ShloMosaic.Lib.ValueIdx
import Idealize.ShloMosaic.Lib.StableHlo.Predicate

noncomputable section

namespace Cert.ScatterGather

open Idealize.ShloMosaic Idealize.ShloMosaic.ValueIdx
open scoped BigOperators

/-- The row an index word names for a scatter into `N` rows: the word read signed, when it lies in [0, N);
    no row otherwise (the update is dropped). -/
def tgtW (N : Nat) {w : Nat} (x : BitVec w) : Option (Fin N) :=
  if h : 0 ≤ x.toInt ∧ x.toInt < (N : Int) then some ⟨x.toInt.toNat, by omega⟩ else none

/-- The row an index word names for a gather from `N` rows: the word read signed and clamped into [0, N − 1]. -/
def rowW (N : Nat) (hN : 0 < N) {w : Nat} (x : BitVec w) : Fin N := ⟨min x.toInt.toNat (N - 1), by omega⟩

/-- A word that names row `i` for the scatter names the same row for the gather. -/
theorem rowW_of_tgtW {N : Nat} (hN : 0 < N) {w : Nat} (x : BitVec w) (i : Fin N) (h : tgtW N x = some i) :
    rowW N hN x = i := by
  unfold tgtW at h
  split at h
  · next hx =>
    have hi : (⟨x.toInt.toNat, by omega⟩ : Fin N) = i := Option.some.inj h
    subst hi
    apply Fin.ext
    show min x.toInt.toNat (N - 1) = x.toInt.toNat
    omega
  · exact absurd h (by simp)

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The scatter into a vector -/

section Vec

variable {N E w : Nat} (d : ScatterDims ⟨1, ![N]⟩ ⟨2, ![E, 1]⟩ ⟨1, ![E]⟩)

/-- The start of update `e`'s window on the operand's one axis: the e-th index word, read signed. -/
theorem start_vec (hs : d.scatterDimsToOperandDims = [0]) (hv : d.indexVectorDim = 1)
    (idx : IVec ⟨2, ![E, 1]⟩ w) (e : Fin E) :
    d.start (ix1 e) idx 0 = (idx (ix2 e 0)).toInt := by
  have hm : (0 : Fin 1) ∈ d.scatterDimsToOperandDims := by rw [hs]; exact List.mem_singleton.mpr rfl
  unfold ScatterDims.start
  rw [dif_pos hm]
  congr 2
  funext b
  match b with
  | ⟨0, _⟩ =>
    unfold ScatterDims.siIdx
    rw [dif_neg (by rw [hv]; simp)]
    unfold ScatterDims.siCoord
    apply Fin.ext
    simp only [Fin.val_cast]
    have e' : ∀ X : Fin 1, ((ix1 e : (⟨1, ![E]⟩ : Shape).Idx) X).val = e.val := fun X => by
      have hX : X = 0 := Subsingleton.elim _ _
      subst hX; rfl
    exact e' _
  | ⟨1, _⟩ =>
    unfold ScatterDims.siIdx
    rw [dif_pos (by rw [hv])]
    apply Fin.ext
    show List.idxOf (0 : Fin 1) d.scatterDimsToOperandDims = 0
    rw [hs]; simp

/-- The operand's one axis is inserted: the window coordinate there is 0. -/
theorem window_vec (hi : d.insertedWindowDims = [0]) (j : (⟨1, ![E]⟩ : Shape).Idx) : d.window j 0 = 0 := by
  have hk : (0 : Fin 1) ∉ d.sKept := by simp [ScatterDims.sKept, Shape.kept, hi]
  unfold ScatterDims.window
  rw [dif_neg hk]

/-- Where update `e` lands: the row its index word names, when it names one. -/
theorem resultIdx?_vec (hi : d.insertedWindowDims = [0])
    (hs : d.scatterDimsToOperandDims = [0]) (hv : d.indexVectorDim = 1)
    (idx : IVec ⟨2, ![E, 1]⟩ w) (e : Fin E) :
    d.resultIdx? (ix1 e) idx = (tgtW N (idx (ix2 e 0))).map ix1 := by
  have hst := start_vec d hs hv idx e
  have hwi := window_vec d hi (ix1 e)
  unfold ScatterDims.resultIdx? tgtW
  by_cases hx : 0 ≤ (idx (ix2 e 0)).toInt ∧ (idx (ix2 e 0)).toInt < (N : Int)
  · have hall : ∀ a : Fin 1, 0 ≤ d.start (ix1 e) idx a + d.window (ix1 e) a ∧
        d.start (ix1 e) idx a + d.window (ix1 e) a < (⟨1, ![N]⟩ : Shape).size a := fun a => by
      obtain rfl : a = 0 := Subsingleton.elim _ _
      rw [hst, hwi]
      show 0 ≤ (idx (ix2 e 0)).toInt + ((0 : Nat) : Int) ∧ (idx (ix2 e 0)).toInt + ((0 : Nat) : Int) < (N : Int)
      omega
    rw [dif_pos hall, dif_pos hx]
    show some _ = some _
    congr 1
    funext a
    obtain rfl : a = 0 := Subsingleton.elim _ _
    apply Fin.ext
    show (d.start (ix1 e) idx 0 + d.window (ix1 e) 0).toNat = (idx (ix2 e 0)).toInt.toNat
    rw [hst, hwi]
    simp
  · have hnall : ¬ ∀ a : Fin 1, 0 ≤ d.start (ix1 e) idx a + d.window (ix1 e) a ∧
        d.start (ix1 e) idx a + d.window (ix1 e) a < (⟨1, ![N]⟩ : Shape).size a := fun hall => by
      have h0 := hall 0
      rw [hst, hwi] at h0
      apply hx
      have h0' : 0 ≤ (idx (ix2 e 0)).toInt + ((0 : Nat) : Int) ∧ (idx (ix2 e 0)).toInt + ((0 : Nat) : Int) < (N : Int) := h0
      omega
    rw [dif_neg hnall, dif_neg hx]
    rfl

end Vec

/-- The scatter-add into a vector, at row `i`: the operand there plus the updates whose index word names row `i`. -/
theorem scatterAdd_vec_apply {N E w : Nat}
    (d : ScatterDims ⟨1, ![N]⟩ ⟨2, ![E, 1]⟩ ⟨1, ![E]⟩)
    (hu : d.updateWindowDims = []) (hi : d.insertedWindowDims = [0])
    (hs : d.scatterDimsToOperandDims = [0]) (hv : d.indexVectorDim = 1)
    (x : (⟨1, ![N]⟩ : Shape).Idx → EReal) (idx : IVec ⟨2, ![E, 1]⟩ w) (upd : (⟨1, ![E]⟩ : Shape).Idx → EReal) (i : Fin N) :
    Ideal.hostScatterAdd d x idx upd (ix1 i)
      = x (ix1 i) + ∑ e ∈ Finset.univ.filter (fun e : Fin E => tgtW N (idx (ix2 e 0)) = some i), upd (ix1 e) := by
  show x (ix1 i) + ∑ j ∈ Finset.univ.filter (fun j => d.resultIdx? j idx = some (ix1 i)), upd j = _
  congr 1
  rw [Finset.sum_filter, Finset.sum_filter, sum_idx1]
  refine Finset.sum_congr rfl fun e _ => ?_
  have hiff : d.resultIdx? (ix1 e) idx = some (ix1 i) ↔ tgtW N (idx (ix2 e 0)) = some i := by
    rw [resultIdx?_vec d hi hs hv idx e]
    cases tgtW N (idx (ix2 e 0)) with
    | none => simp
    | some r =>
      simp only [Option.map_some, Option.some.injEq]
      constructor
      · intro h'
        exact congrFun h' 0
      · intro h'
        rw [h']
  exact if_congr hiff rfl rfl

/-! ## The scatter of rows into a matrix -/

/-- The first coordinate of a rank-2 index, read on an axis known to be axis 0. -/
theorem ix2_val_axis0 {n0 n1 : Nat} (a : Fin n0) (b : Fin n1) (X : Fin 2) (hX : X = 0) :
    ((ix2 a b : (⟨2, ![n0, n1]⟩ : Shape).Idx) X).val = a.val := by
  subst hX; rfl

/-- The second coordinate of a rank-2 index, read on an axis known to be axis 1. -/
theorem ix2_val_axis1 {n0 n1 : Nat} (a : Fin n0) (b : Fin n1) (X : Fin 2) (hX : X = 1) :
    ((ix2 a b : (⟨2, ![n0, n1]⟩ : Shape).Idx) X).val = b.val := by
  subst hX; rfl

section Rows

variable {N H E w : Nat} (d : ScatterDims ⟨2, ![N, H]⟩ ⟨2, ![E, 1]⟩ ⟨2, ![E, H]⟩)

/-- The updates' scatter axis is axis 0 (axis 1 is the window axis). -/
theorem uScatter_rows (hu : d.updateWindowDims = [1]) : d.uScatter = [0] := by
  show (List.finRange 2).filter (fun a => a ∉ d.updateWindowDims) = [0]
  rw [hu]
  exact (by decide : (List.finRange 2).filter (fun a : Fin 2 => a ∉ [(1 : Fin 2)]) = [(0 : Fin 2)])

/-- The operand's kept axis is axis 1 (axis 0 is inserted). -/
theorem sKept_rows (hi : d.insertedWindowDims = [0]) : d.sKept = [1] := by
  show (List.finRange 2).filter (fun a => a ∉ d.insertedWindowDims) = [1]
  rw [hi]
  exact (by decide : (List.finRange 2).filter (fun a : Fin 2 => a ∉ [(0 : Fin 2)]) = [(1 : Fin 2)])

/-- The start of update (e, c)'s window on the operand's row axis: the e-th index word, read signed. -/
theorem start_rows0 (hu : d.updateWindowDims = [1])
    (hs : d.scatterDimsToOperandDims = [0]) (hv : d.indexVectorDim = 1)
    (idx : IVec ⟨2, ![E, 1]⟩ w) (e : Fin E) (c : Fin H) :
    d.start (ix2 e c) idx 0 = (idx (ix2 e 0)).toInt := by
  have hm : (0 : Fin 2) ∈ d.scatterDimsToOperandDims := by rw [hs]; exact List.mem_singleton.mpr rfl
  unfold ScatterDims.start
  rw [dif_pos hm]
  congr 2
  funext b
  match b with
  | ⟨0, _⟩ =>
    unfold ScatterDims.siIdx
    rw [dif_neg (by rw [hv]; simp)]
    unfold ScatterDims.siCoord
    apply Fin.ext
    simp only [Fin.val_cast]
    refine ix2_val_axis0 e c _ ?_
    have hall : ∀ X ∈ d.uScatter, X = 0 := by
      rw [uScatter_rows d hu]; intro X hX; exact List.mem_singleton.mp hX
    exact hall _ (List.getElem_mem _)
  | ⟨1, _⟩ =>
    unfold ScatterDims.siIdx
    rw [dif_pos (by rw [hv])]
    apply Fin.ext
    show List.idxOf (0 : Fin 2) d.scatterDimsToOperandDims = 0
    rw [hs]; simp

/-- The start index names no column: the window starts at column 0. -/
theorem start_rows1 (hs : d.scatterDimsToOperandDims = [0])
    (idx : IVec ⟨2, ![E, 1]⟩ w) (j : (⟨2, ![E, H]⟩ : Shape).Idx) : d.start j idx 1 = 0 := by
  have hm : (1 : Fin 2) ∉ d.scatterDimsToOperandDims := by
    rw [hs]; exact (by decide : (1 : Fin 2) ∉ [(0 : Fin 2)])
  unfold ScatterDims.start
  rw [dif_neg hm]

/-- The operand's row axis is inserted: the window coordinate there is 0. -/
theorem window_rows0 (hi : d.insertedWindowDims = [0]) (j : (⟨2, ![E, H]⟩ : Shape).Idx) : d.window j 0 = 0 := by
  have hk : (0 : Fin 2) ∉ d.sKept := by
    rw [sKept_rows d hi]; exact (by decide : (0 : Fin 2) ∉ [(1 : Fin 2)])
  unfold ScatterDims.window
  rw [dif_neg hk]

/-- The operand's column axis is the window axis: the window coordinate there is the update's column. -/
theorem window_rows1 (hu : d.updateWindowDims = [1]) (hi : d.insertedWindowDims = [0]) (e : Fin E) (c : Fin H) :
    d.window (ix2 e c) 1 = c.val := by
  have hk : (1 : Fin 2) ∈ d.sKept := by rw [sKept_rows d hi]; exact List.mem_singleton.mpr rfl
  unfold ScatterDims.window
  rw [dif_pos hk]
  refine ix2_val_axis1 e c _ ?_
  have hall : ∀ X ∈ d.updateWindowDims, X = 1 := by
    rw [hu]; intro X hX; exact List.mem_singleton.mp hX
  exact hall _ (List.getElem_mem _)

/-- Where update (e, c) lands: column `c` of the row its index word names, when it names one. -/
theorem resultIdx?_rows (hu : d.updateWindowDims = [1]) (hi : d.insertedWindowDims = [0])
    (hs : d.scatterDimsToOperandDims = [0]) (hv : d.indexVectorDim = 1)
    (idx : IVec ⟨2, ![E, 1]⟩ w) (e : Fin E) (c : Fin H) :
    d.resultIdx? (ix2 e c) idx = (tgtW N (idx (ix2 e 0))).map (fun r => ix2 r c) := by
  have hst0 := start_rows0 d hu hs hv idx e c
  have hst1 := start_rows1 d hs idx (ix2 e c)
  have hwi0 := window_rows0 d hi (ix2 e c)
  have hwi1 := window_rows1 d hu hi e c
  have hc := c.isLt
  unfold ScatterDims.resultIdx? tgtW
  by_cases hx : 0 ≤ (idx (ix2 e 0)).toInt ∧ (idx (ix2 e 0)).toInt < (N : Int)
  · have hall : ∀ a : Fin 2, 0 ≤ d.start (ix2 e c) idx a + d.window (ix2 e c) a ∧
        d.start (ix2 e c) idx a + d.window (ix2 e c) a < (⟨2, ![N, H]⟩ : Shape).size a := by
      refine Fin.forall_fin_two.2 ⟨?_, ?_⟩
      · rw [hst0, hwi0]
        show 0 ≤ (idx (ix2 e 0)).toInt + ((0 : Nat) : Int) ∧ (idx (ix2 e 0)).toInt + ((0 : Nat) : Int) < (N : Int)
        omega
      · rw [hst1, hwi1]
        show 0 ≤ (0 : Int) + (c.val : Int) ∧ (0 : Int) + (c.val : Int) < (H : Int)
        omega
    rw [dif_pos hall, dif_pos hx]
    show some _ = some _
    congr 1
    have hpt : ∀ a : Fin 2,
        (⟨(d.start (ix2 e c) idx a + d.window (ix2 e c) a).toNat, by have := hall a; omega⟩ :
          Fin ((⟨2, ![N, H]⟩ : Shape).size a))
        = (ix2 (⟨(idx (ix2 e 0)).toInt.toNat, by omega⟩ : Fin N) c : (⟨2, ![N, H]⟩ : Shape).Idx) a := by
      refine Fin.forall_fin_two.2 ⟨?_, ?_⟩
      · apply Fin.ext
        show (d.start (ix2 e c) idx 0 + d.window (ix2 e c) 0).toNat = (idx (ix2 e 0)).toInt.toNat
        rw [hst0, hwi0]
        simp
      · apply Fin.ext
        show (d.start (ix2 e c) idx 1 + d.window (ix2 e c) 1).toNat = c.val
        rw [hst1, hwi1]
        simp
    funext a
    exact hpt a
  · have hnall : ¬ ∀ a : Fin 2, 0 ≤ d.start (ix2 e c) idx a + d.window (ix2 e c) a ∧
        d.start (ix2 e c) idx a + d.window (ix2 e c) a < (⟨2, ![N, H]⟩ : Shape).size a := fun hall => by
      have h0 := hall 0
      rw [hst0, hwi0] at h0
      apply hx
      have h0' : 0 ≤ (idx (ix2 e 0)).toInt + ((0 : Nat) : Int) ∧ (idx (ix2 e 0)).toInt + ((0 : Nat) : Int) < (N : Int) := h0
      omega
    rw [dif_neg hnall, dif_neg hx]
    rfl

end Rows

/-- The scatter-add of rows into a matrix, at (i, j): the operand there plus column `j` of the update rows whose
    index word names row `i`. -/
theorem scatterAdd_rows_apply {N H E w : Nat}
    (d : ScatterDims ⟨2, ![N, H]⟩ ⟨2, ![E, 1]⟩ ⟨2, ![E, H]⟩)
    (hu : d.updateWindowDims = [1]) (hi : d.insertedWindowDims = [0])
    (hs : d.scatterDimsToOperandDims = [0]) (hv : d.indexVectorDim = 1)
    (x : (⟨2, ![N, H]⟩ : Shape).Idx → EReal) (idx : IVec ⟨2, ![E, 1]⟩ w) (upd : (⟨2, ![E, H]⟩ : Shape).Idx → EReal)
    (i : Fin N) (j : Fin H) :
    Ideal.hostScatterAdd d x idx upd (ix2 i j)
      = x (ix2 i j) + ∑ e ∈ Finset.univ.filter (fun e : Fin E => tgtW N (idx (ix2 e 0)) = some i), upd (ix2 e j) := by
  show x (ix2 i j) + ∑ u ∈ Finset.univ.filter (fun u => d.resultIdx? u idx = some (ix2 i j)), upd u = _
  congr 1
  rw [Finset.sum_filter, Finset.sum_filter, sum_idx2]
  refine Finset.sum_congr rfl fun e _ => ?_
  have hiff : ∀ c : Fin H, d.resultIdx? (ix2 e c) idx = some (ix2 i j) ↔ (tgtW N (idx (ix2 e 0)) = some i ∧ c = j) := by
    intro c
    rw [resultIdx?_rows d hu hi hs hv idx e c]
    cases tgtW N (idx (ix2 e 0)) with
    | none => simp
    | some r =>
      simp only [Option.map_some, Option.some.injEq]
      constructor
      · intro h'
        exact ⟨congrFun h' 0, congrFun h' 1⟩
      · rintro ⟨h1, h2⟩
        rw [h1, h2]
  by_cases hq : tgtW N (idx (ix2 e 0)) = some i
  · rw [if_pos hq]
    rw [Finset.sum_eq_single j]
    · rw [if_pos ((hiff j).2 ⟨hq, rfl⟩)]
    · intro c _ hcj
      rw [if_neg (fun h => hcj ((hiff c).1 h).2)]
    · intro hj
      exact absurd (Finset.mem_univ j) hj
  · rw [if_neg hq]
    refine Finset.sum_eq_zero fun c _ => ?_
    rw [if_neg (fun h => hq ((hiff c).1 h).1)]

/-! ## The row gather -/

section GatherRows

variable {N H E w : Nat} (d : GatherDims ⟨2, ![N, H]⟩ ⟨2, ![E, 1]⟩ ⟨2, ![E, H]⟩)

/-- The operand's kept axis is the column axis (the row axis is collapsed). -/
theorem gather_sKept_rows (hcoll : d.collapsedSliceDims = [0]) (hob : d.operandBatchingDims = []) : d.sKept = [1] := by
  show (List.finRange 2).filter (fun a => a ∉ d.collapsedSliceDims ++ d.operandBatchingDims) = [1]
  rw [hcoll, hob]
  exact (by decide : (List.finRange 2).filter (fun a : Fin 2 => a ∉ [(0 : Fin 2)] ++ []) = [(1 : Fin 2)])

/-- The result's batch axis is axis 0 (axis 1 is the offset axis). -/
theorem gather_batchDims_rows (hoff : d.offsetDims = [1]) : d.batchDims = [0] := by
  show (List.finRange 2).filter (fun a => a ∉ d.offsetDims) = [0]
  rw [hoff]
  exact (by decide : (List.finRange 2).filter (fun a : Fin 2 => a ∉ [(1 : Fin 2)]) = [(0 : Fin 2)])

/-- Result index (e, j) reads its start index at row `e` of the column of index words. -/
theorem gather_siIdx_rows (hoff : d.offsetDims = [1]) (hsim : d.startIndexMap = [0]) (hivd : d.indexVectorDim = 1)
    (e : Fin E) (j : Fin H) (c : Fin d.startIndexMap.length) :
    d.siIdx (ix2 e j) c = ix2 e 0 := by
  funext b
  match b with
  | ⟨0, _⟩ =>
    unfold GatherDims.siIdx
    rw [dif_neg (by rw [hivd]; simp)]
    unfold GatherDims.siCoord
    apply Fin.ext
    simp only [Fin.val_cast]
    refine ix2_val_axis0 e j _ ?_
    have hall : ∀ X ∈ d.batchDims, X = 0 := by
      rw [gather_batchDims_rows d hoff]; intro X hX; exact List.mem_singleton.mp hX
    exact hall _ (List.getElem_mem _)
  | ⟨1, _⟩ =>
    unfold GatherDims.siIdx
    rw [dif_pos (by rw [hivd])]
    apply Fin.ext
    show c.val = 0
    have hlen : d.startIndexMap.length = 1 := by rw [hsim]; rfl
    have hc := c.isLt
    omega

/-- The start of the slice on the row axis: the e-th index word read signed and clamped into [0, N − 1]. -/
theorem gather_start_rows0 (hoff : d.offsetDims = [1]) (hcoll : d.collapsedSliceDims = [0])
    (hsim : d.startIndexMap = [0]) (hivd : d.indexVectorDim = 1)
    (idx : IVec ⟨2, ![E, 1]⟩ w) (e : Fin E) (j : Fin H) :
    d.start (ix2 e j) idx 0 = min (idx (ix2 e 0)).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, gather_siIdx_rows d hoff hsim hivd e j]
  show min (idx (ix2 e 0)).toInt.toNat (N - d.sliceSizes 0) = _
  rw [hsl]

/-- The start index names no column: the slice starts at column 0. -/
theorem gather_start_rows1 (hsim : d.startIndexMap = [0])
    (idx : IVec ⟨2, ![E, 1]⟩ w) (y : (⟨2, ![E, H]⟩ : Shape).Idx) : d.start y idx 1 = 0 := by
  have hm : (1 : Fin 2) ∉ d.startIndexMap := by
    rw [hsim]; exact (by decide : (1 : Fin 2) ∉ [(0 : Fin 2)])
  unfold GatherDims.start
  rw [dif_neg hm]

/-- The offset coordinate on the column axis is the result's column. -/
theorem gather_offCoord_rows1 (hoff : d.offsetDims = [1]) (hcoll : d.collapsedSliceDims = [0])
    (hob : d.operandBatchingDims = []) (e : Fin E) (j : Fin H) :
    d.offCoord (ix2 e j) 1 = j.val := by
  have hk : (1 : Fin 2) ∈ d.sKept := by rw [gather_sKept_rows d hcoll hob]; exact List.mem_singleton.mpr rfl
  unfold GatherDims.offCoord
  rw [dif_pos hk]
  refine ix2_val_axis1 e j _ ?_
  have hall : ∀ X ∈ d.offsetDims, X = 1 := by
    rw [hoff]; intro X hX; exact List.mem_singleton.mp hX
  exact hall _ (List.getElem_mem _)

end GatherRows

/-- The gather of rows of a matrix, at (e, j): column `j` of the row the e-th index word names. -/
theorem gather_rows_apply {α : Type} {N H E w : Nat} (hN : 0 < N)
    (d : GatherDims ⟨2, ![N, H]⟩ ⟨2, ![E, 1]⟩ ⟨2, ![E, H]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, H])
    (x : (⟨2, ![N, H]⟩ : Shape).Idx → α) (idx : IVec ⟨2, ![E, 1]⟩ w) (e : Fin E) (j : Fin H) :
    Host.gather d x idx (ix2 e j) = x (ix2 (rowW N hN (idx (ix2 e 0))) j) := by
  unfold Host.gather
  congr 1
  have hb : ∀ a : Fin 2, a ∉ d.operandBatchingDims := fun a => by rw [hob]; exact List.not_mem_nil
  have hk0 : (0 : Fin 2) ∉ d.sKept := by
    rw [gather_sKept_rows d hcoll hob]; exact (by decide : (0 : Fin 2) ∉ [(1 : Fin 2)])
  have hpt : ∀ a : Fin 2, d.operandIdx (ix2 e j) idx a
      = (ix2 (rowW N hN (idx (ix2 e 0))) j : (⟨2, ![N, H]⟩ : Shape).Idx) a := by
    refine Fin.forall_fin_two.2 ⟨?_, ?_⟩
    · apply Fin.ext
      show d.start (ix2 e j) idx 0 + d.batchCoord (ix2 e j) 0 + d.offCoord (ix2 e j) 0
        = min (idx (ix2 e 0)).toInt.toNat (N - 1)
      rw [GatherDims.batchCoord_eq_zero _ _ _ (hb 0), GatherDims.offCoord_eq_zero _ _ _ hk0,
        gather_start_rows0 d hoff hcoll hsim hivd idx e j]
      simp only [Nat.add_zero]
    · apply Fin.ext
      show d.start (ix2 e j) idx 1 + d.batchCoord (ix2 e j) 1 + d.offCoord (ix2 e j) 1 = j.val
      rw [GatherDims.batchCoord_eq_zero _ _ _ (hb 1), gather_offCoord_rows1 d hoff hcoll hob e j,
        gather_start_rows1 d hsim idx (ix2 e j)]
      omega
  funext a
  exact hpt a

/-- The gather of entries of a vector, at `e`: the entry the e-th index word names (the library's take, restated
    with `rowW`). -/
theorem gather_vec_apply {α : Type} {N E w : Nat} (hN : 0 < N)
    (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) :
    Host.gather d x idx (ix1 e) = x (ix1 (rowW N hN (idx (ix2 e 0)))) := by
  have h := StableHlo.Predicate.gather_take d hcoll hob hsim hivd x idx e hN
  have h1 : (Shape.Idx.ofFin e : (⟨1, ![E]⟩ : Shape).Idx) = ix1 e := by
    funext a
    match a with
    | ⟨0, _⟩ => rfl
  have h2 : (StableHlo.Predicate.ixP e : (⟨2, ![E, 1]⟩ : Shape).Idx) = ix2 e 0 := by
    funext a
    match a with
    | ⟨0, _⟩ => rfl
    | ⟨1, _⟩ => rfl
  rw [h1] at h
  rw [h]
  congr 1
  funext a
  match a with
  | ⟨0, _⟩ =>
    apply Fin.ext
    show min (idx (StableHlo.Predicate.ixP e)).toInt.toNat (N - 1) = min (idx (ix2 e 0)).toInt.toNat (N - 1)
    rw [h2]

end Cert.ScatterGather

end
-- ==== Proof.VoxelSpec.lean ====
/- The voxel grid and the two arrangements of its segment sum.

   A point cloud of 2,000,000 points carries, per point, four integer coordinates (batch, z, y, x) and four features.
   The grid has 4 × 1 × 400 × 352 cells; a point's cell is the mixed-radix number ((b·1 + z)·400 + y)·352 + x, computed
   on 32-bit words. The segment sum adds each point's features into its cell; the segment count adds one.

   One arrangement walks the points and drops each into the cell its number names. The other cuts the points into
   1000 consecutive blocks of 2000 and, per block, multiplies two indicator matrices: rows (b, z, y) against points,
   and points against columns x. When every coordinate lies in its range the two agree: the cell number splits
   uniquely into a row below 1600 and a column below 352. -/
import proofs.«408289_j6614249636210_1_alg».proof.Proof.LibScatterGather

noncomputable section

namespace Cert.Voxel

open Idealize.ShloMosaic Idealize.ShloMosaic.ValueIdx Cert.ScatterGather
open scoped BigOperators

/-- The coordinates of all points, and of one block of 2000 points. -/
abbrev Coors := IVec (⟨2, ![2000000, 4]⟩ : Shape) 32
abbrev CoorsBlk := IVec (⟨2, ![2000, 4]⟩ : Shape) 32
/-- The features of all points, and of one block, as extended reals. -/
abbrev Feats := (⟨2, ![2000000, 4]⟩ : Shape).Idx → EReal
abbrev FeatsBlk := (⟨2, ![2000, 4]⟩ : Shape).Idx → EReal

/-- Point `n` of block `t`. -/
def pt (t : Fin 1000) (n : Fin 2000) : Fin 2000000 := ⟨2000 * t.val + n.val, by have := t.isLt; have := n.isLt; omega⟩

/-- Block `t` of the coordinates, and of the features. -/
def blkOf (C : Coors) (t : Fin 1000) : CoorsBlk := fun i => C (ix2 (pt t (i 0)) (i 1))
def fblkOf (X : Feats) (t : Fin 1000) : FeatsBlk := fun i => X (ix2 (pt t (i 0)) (i 1))

/-- The row word (b·1 + z)·400 + y of a point, over all points and within a block. -/
def byW (C : Coors) (e : Fin 2000000) : BitVec 32 := (C (ix2 e 0) * 1#32 + C (ix2 e 1)) * 400#32 + C (ix2 e 2)
def byB (B : CoorsBlk) (n : Fin 2000) : BitVec 32 := (B (ix2 n 0) * 1#32 + B (ix2 n 1)) * 400#32 + B (ix2 n 2)
/-- The cell word: the row word times 352 plus x. -/
def segW (C : Coors) (e : Fin 2000000) : BitVec 32 := byW C e * 352#32 + C (ix2 e 3)

/-- Every coordinate lies in its range of the grid: batch below 4, z below 1, y below 400, x below 352 (words read
    unsigned, so none is negative). -/
def InGrid (C : Coors) : Prop :=
  ∀ e : Fin 2000000, (C (ix2 e 0)).toNat < 4 ∧ (C (ix2 e 1)).toNat < 1 ∧ (C (ix2 e 2)).toNat < 400 ∧ (C (ix2 e 3)).toNat < 352

/-- One when the proposition holds, zero otherwise. -/
def ind (p : Prop) [Decidable p] : EReal := if p then 1 else 0

/-- The segment count and the segment sum at a cell: over the points whose cell word names it. -/
def cntAt (C : Coors) (s : Fin 563200) : EReal :=
  ∑ e ∈ Finset.univ.filter (fun e : Fin 2000000 => tgtW 563200 (segW C e) = some s), (1 : EReal)
def sumAt (C : Coors) (X : Feats) (s : Fin 563200) (c : Fin 4) : EReal :=
  ∑ e ∈ Finset.univ.filter (fun e : Fin 2000000 => tgtW 563200 (segW C e) = some s), X (ix2 e c)

/-- The same as whole arrays: counts over the 563200 cells, sums over cells × features. -/
def cntArr (C : Coors) : (⟨1, ![563200]⟩ : Shape).Idx → EReal := fun i => cntAt C (i 0)
def sumArr (C : Coors) (X : Feats) : (⟨2, ![563200, 4]⟩ : Shape).Idx → EReal := fun i => sumAt C X (i 0) (i 1)

/-- One block's contribution, as the product of the two indicator matrices. -/
def cntBlk (B : CoorsBlk) (j : Fin 1600) (k : Fin 352) : EReal :=
  ∑ n : Fin 2000, ind (BitVec.ofNat 32 j.val = byB B n) * ind (B (ix2 n 3) = BitVec.ofNat 32 k.val)
def sumBlk (B : CoorsBlk) (Y : FeatsBlk) (j : Fin 1600) (k : Fin 352) (c : Fin 4) : EReal :=
  ∑ n : Fin 2000, ind (BitVec.ofNat 32 j.val = byB B n) * (ind (B (ix2 n 3) = BitVec.ofNat 32 k.val) * Y (ix2 n c))

/-- The blocks up to and including block `n`. -/
def upTo (n : ℕ) : Finset (Fin 1000) := Finset.univ.filter (fun s => s.val ≤ n)

/-- Cell (j, k) of the grid, as a cell number. -/
def cell (j : Fin 1600) (k : Fin 352) : Fin 563200 := ⟨352 * j.val + k.val, by have := j.isLt; have := k.isLt; omega⟩

end Cert.Voxel

end
-- ==== Proof.BlockPartial.lean ====
/- One block of 2000 points through the kernel's arithmetic, at the exact values.

   The body builds two indicator matrices from the block's coordinates — rows (b·1 + z)·400 + y against points, points
   against columns x — and multiplies them on the matrix unit into a zero accumulator: entry (j, k) counts the block's
   points in cell (j, k). Scaling the second matrix's row n by feature c of point n first gives the block's feature
   sum instead. A change of float format is the identity at the exact values, so the narrow operands cost nothing. -/
import proofs.«408289_j6614249636210_1_alg».proof.Proof.Gen.KernelIdeal.Skeleton
import proofs.«408289_j6614249636210_1_alg».proof.Proof.VoxelSpec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.BlockPartial

open Cert.KernelIdeal Cert.KernelIdeal.Gen Cert.Voxel
open Idealize.ShloMosaic Idealize.ShloMosaic.ValueIdx
open scoped BigOperators

/-- A column [a, 1] broadcast to [a, b] reads, at (p, c), the column at p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column [a, 1] cast to the vector [a] reads, at i, the column at i. -/
private theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector [a] cast to the column [a, 1] reads, at (i, u), the vector at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column o of a block of four columns, cut out and flattened to a vector, reads at n the block at (n, o). -/
private theorem col_apply {α : Type} (o : ℕ) (x : S2000x4.Idx → α) (hs : S2000x4.Slices ![0, o] S2000x1)
    (hc : S2000x1.ShapeCasts S2000) (n : Fin 2000) (c : Fin 4) (hco : c.val = o) :
    shapeCast S2000 (extractStridedSlice S2000x1 ![0, o] x hs) hc (ix1 n) = x (ix2 n c) := by
  rw [shapeCast_a1_a_apply]
  exact slice2_axis1_apply o x hs n (0 : Fin 1) c (by rw [hco]; rfl)

/-- The same column kept as a column [2000, 1]. -/
private theorem colK_apply {α : Type} (o : ℕ) (x : S2000x4.Idx → α) (hs : S2000x4.Slices ![0, o] S2000x1)
    (n : Fin 2000) (u : Fin 1) (c : Fin 4) (hco : c.val = o) :
    extractStridedSlice S2000x1 ![0, o] x hs (ix2 n u) = x (ix2 n c) :=
  slice2_axis1_apply o x hs n u c (by have hu : u.val = 0 := by omega
                                      rw [hco, hu]; rfl)

/-- The comparison's one-bit word, widened to 32 bits and read as a signed number, is the indicator of equality. -/
private theorem bit_real (a b : BitVec 32) :
    (((((IntOp.cmpi .eq a b).setWidth 32).toInt : ℤ) : ℝ) : EReal) = ind (a = b) := by
  unfold ind
  by_cases h : a = b
  · have e : IntOp.cmpi .eq a b = 1#1 := by
      show BitVec.ofBool (a == b) = 1#1
      rw [beq_iff_eq.mpr h]; rfl
    have t : ((1#1 : BitVec 1).setWidth 32).toInt = 1 := by decide
    rw [e, if_pos h, t]; simp
  · have e : IntOp.cmpi .eq a b = 0#1 := by
      show BitVec.ofBool (a == b) = 0#1
      rw [beq_eq_false_iff_ne.mpr h]; rfl
    have t : ((0#1 : BitVec 1).setWidth 32).toInt = 0 := by decide
    rw [e, if_neg h, t]; simp

/-- The matrix unit's product into the zero accumulator, read at (j, k): the sum over the block's 2000 points of the
    products of the two operands' entries. -/
private theorem matmul_sum (lhs : FVec Ideal S1600x2000 .bf16) (rhs : FVec Ideal S2000x352 .bf16) (j : Fin 1600) (k : Fin 352) :
    matmul dot_S1600x2000_S2000x352_S1600x352_1_0_0_1_n_n none lhs rhs (constant (F := Ideal) S1600x352 .f32 0x00000000#32) (ix2 j k)
      = ∑ n : Fin 2000, lhs (ix2 j n) * rhs (ix2 n k) := by
  show FloatOps.matmul _ none lhs rhs _ (ix2 j k) = _
  rw [Ideal.matmul_constant_zero_apply,
    ← Equiv.sum_comp (contrEquiv1 dot_S1600x2000_S2000x352_S1600x352_1_0_0_1_n_n 2000 rfl rfl).symm]
  refine Finset.sum_congr rfl fun c _ => ?_
  have c2 := contrEquiv1_symm_val dot_S1600x2000_S2000x352_S1600x352_1_0_0_1_n_n 2000 rfl rfl c
  have l2 : dot_S1600x2000_S2000x352_S1600x352_1_0_0_1_n_n.lhsIdx (ix2 j k) ((contrEquiv1 _ 2000 rfl rfl).symm c) = ix2 j c := by
    funext ax; apply Fin.ext
    match ax with
    | ⟨0, _⟩ => simp [DotDims.lhsIdx, dot_S1600x2000_S2000x352_S1600x352_1_0_0_1_n_n]; rfl
    | ⟨1, _⟩ => simp [DotDims.lhsIdx, dot_S1600x2000_S2000x352_S1600x352_1_0_0_1_n_n]; exact c2
  have r2 : dot_S1600x2000_S2000x352_S1600x352_1_0_0_1_n_n.rhsIdx (ix2 j k) ((contrEquiv1 _ 2000 rfl rfl).symm c) = ix2 c k := by
    funext ax; apply Fin.ext
    match ax with
    | ⟨0, _⟩ => simp [DotDims.rhsIdx, dot_S1600x2000_S2000x352_S1600x352_1_0_0_1_n_n]; exact c2
    | ⟨1, _⟩ => simp [DotDims.rhsIdx, dot_S1600x2000_S2000x352_S1600x352_1_0_0_1_n_n]; rfl
  rw [l2, r2]

/-- Entry (j, n) of the first indicator matrix: one exactly when j is the row word (b·1 + z)·400 + y of point n. -/
private theorem pay4_entry (x0 : Vec Ideal S2000x4 .i32) (j : Fin 1600) (n : Fin 2000) :
    k0_pay4 (F := Ideal) x0 (ix2 j n) = ind (BitVec.ofNat 32 j.val = byB x0 n) := by
  unfold k0_pay4
  refine Eq.trans ?_ (bit_real (BitVec.ofNat 32 j.val) (byB x0 n))
  show ((((IntOp.cmpi .eq (iota .tc S1600x2000 32 [0] iota_S1600x2000_d0_w32 (ix2 j n))
      (broadcastTo S1600x2000 _ broadcasts_S1x2000_S1600x2000 (ix2 j n))).setWidth 32).toInt : ℝ) : EReal) = _
  rw [iota_single_apply, broadcastTo_1b_ab_apply, shapeCast_a_1a_apply]
  show ((((IntOp.cmpi .eq (BitVec.ofNat 32 j.val)
      ((shapeCast S2000 (extractStridedSlice S2000x1 ![0, 0] x0 slices_S2000x4_o0_0_S2000x1) shapeCasts_S2000x1_S2000 (ix1 n) * 1#32
          + shapeCast S2000 (extractStridedSlice S2000x1 ![0, 1] x0 slices_S2000x4_o0_1_S2000x1) shapeCasts_S2000x1_S2000 (ix1 n)) * 400#32
        + shapeCast S2000 (extractStridedSlice S2000x1 ![0, 2] x0 slices_S2000x4_o0_2_S2000x1) shapeCasts_S2000x1_S2000 (ix1 n))).setWidth 32).toInt : ℝ) : EReal) = _
  rw [col_apply 0 x0 _ _ n 0 rfl, col_apply 1 x0 _ _ n 1 rfl, col_apply 2 x0 _ _ n 2 rfl]
  rfl

/-- Entry (n, k) of the second indicator matrix: one exactly when point n's x is k. -/
private theorem pay5_entry (x0 : Vec Ideal S2000x4 .i32) (n : Fin 2000) (k : Fin 352) :
    k0_pay5 (F := Ideal) x0 (ix2 n k) = ind (x0 (ix2 n 3) = BitVec.ofNat 32 k.val) := by
  unfold k0_pay5
  refine Eq.trans ?_ (bit_real (x0 (ix2 n 3)) (BitVec.ofNat 32 k.val))
  show ((((IntOp.cmpi .eq (broadcastTo S2000x352 _ broadcasts_S2000x1_S2000x352 (ix2 n k))
      (iota .tc S2000x352 32 [1] iota_S2000x352_d1_w32 (ix2 n k))).setWidth 32).toInt : ℝ) : EReal) = _
  rw [iota_single_apply, broadcastTo_a1_ab_apply, shapeCast_a_a1_apply, col_apply 3 x0 _ _ n 3 rfl]

/-- The product of the two indicator matrices at (j, k) is the block's count for cell (j, k). -/
private theorem count_prod (x0 : Vec Ideal S2000x4 .i32) (j : Fin 1600) (k : Fin 352) :
    matmul dot_S1600x2000_S2000x352_S1600x352_1_0_0_1_n_n none (k0_pay4 (F := Ideal) x0) (k0_pay5 (F := Ideal) x0)
        (constant (F := Ideal) S1600x352 .f32 0x00000000#32) (ix2 j k) = cntBlk x0 j k := by
  rw [matmul_sum]
  unfold cntBlk
  exact Finset.sum_congr rfl fun n _ => by rw [pay4_entry, pay5_entry]

/-- With the second matrix's row n scaled by feature c of point n first, the product at (j, k) is the block's sum of
    feature c over cell (j, k). -/
private theorem feat_prod (o : ℕ) (c : Fin 4) (hco : c.val = o) (hs : S2000x4.Slices ![0, o] S2000x1)
    (x0 : Vec Ideal S2000x4 .i32) (x1 : Vec Ideal S2000x4 .f32) (j : Fin 1600) (k : Fin 352) :
    matmul dot_S1600x2000_S2000x352_S1600x352_1_0_0_1_n_n none (k0_pay4 (F := Ideal) x0)
        (mulf (k0_pay5 (F := Ideal) x0)
          (broadcastTo S2000x352 (extractStridedSlice S2000x1 ![0, o] (k0_pay7 (F := Ideal) x1) hs) broadcasts_S2000x1_S2000x352))
        (constant (F := Ideal) S1600x352 .f32 0x00000000#32) (ix2 j k) = sumBlk x0 x1 j k c := by
  rw [matmul_sum]
  unfold sumBlk
  refine Finset.sum_congr rfl fun n _ => ?_
  rw [pay4_entry, mulf_apply, pay5_entry, broadcastTo_a1_ab_apply, colK_apply o _ hs n 0 c hco]
  rfl

/-- The count store's payload at (j, k): what the buffer held plus the block's count for cell (j, k). -/
theorem pay6_apply (x0 : Vec Ideal S2000x4 .i32) (v34 : Vec Ideal S1600x352 .f32) (j : Fin 1600) (k : Fin 352) :
    k0_pay6 (F := Ideal) x0 v34 (ix2 j k) = v34 (ix2 j k) + cntBlk x0 j k := by
  unfold k0_pay6
  show shapeCast S1600x352 v34 shapeCasts_S1600x352_S1600x352 (ix2 j k)
      + matmul dot_S1600x2000_S2000x352_S1600x352_1_0_0_1_n_n none (k0_pay4 (F := Ideal) x0) (k0_pay5 (F := Ideal) x0)
          (constant (F := Ideal) S1600x352 .f32 0x00000000#32) (ix2 j k) = _
  rw [shapeCast_self, count_prod]

/-- Feature 0's matrix product at (j, k): the block's sum of feature 0 over cell (j, k). -/
theorem pay8_apply (x0 : Vec Ideal S2000x4 .i32) (x1 : Vec Ideal S2000x4 .f32) (j : Fin 1600) (k : Fin 352) :
    k0_pay8 (F := Ideal) x0 x1 (ix2 j k) = sumBlk x0 x1 j k 0 := by
  unfold k0_pay8
  exact feat_prod 0 0 rfl slices_S2000x4_o0_0_S2000x1 x0 x1 j k

/-- Feature 0's store payload: the slab read back plus the product. -/
theorem pay9_apply (v42 : FVec Ideal S1600x352 .f32) (v43 : Vec Ideal S1x1600x352 .f32) (j : Fin 1600) (k : Fin 352) :
    k0_pay9 (F := Ideal) v42 v43 (ix3 0 j k) = v43 (ix3 0 j k) + v42 (ix2 j k) := by
  unfold k0_pay9
  rw [shapeCast_ab_1ab_apply, addf_apply, shapeCast_1ab_ab_apply]

/-- Feature 1's store payload: the slab read back plus the block's sum of feature 1. -/
theorem pay10_apply (x0 : Vec Ideal S2000x4 .i32) (x1 : Vec Ideal S2000x4 .f32) (v53 : Vec Ideal S1x1600x352 .f32) (j : Fin 1600) (k : Fin 352) :
    k0_pay10 (F := Ideal) (k0_pay4 x0) (k0_pay5 x0) (k0_pay7 x1) v53 (ix3 0 j k) = v53 (ix3 0 j k) + sumBlk x0 x1 j k 1 := by
  unfold k0_pay10
  rw [shapeCast_ab_1ab_apply, addf_apply, shapeCast_1ab_ab_apply]
  exact congrArg (v53 (ix3 0 j k) + ·) (feat_prod 1 1 rfl slices_S2000x4_o0_1_S2000x1 x0 x1 j k)

/-- Feature 2's store payload. -/
theorem pay11_apply (x0 : Vec Ideal S2000x4 .i32) (x1 : Vec Ideal S2000x4 .f32) (v63 : Vec Ideal S1x1600x352 .f32) (j : Fin 1600) (k : Fin 352) :
    k0_pay11 (F := Ideal) (k0_pay4 x0) (k0_pay5 x0) (k0_pay7 x1) v63 (ix3 0 j k) = v63 (ix3 0 j k) + sumBlk x0 x1 j k 2 := by
  unfold k0_pay11
  rw [shapeCast_ab_1ab_apply, addf_apply, shapeCast_1ab_ab_apply]
  exact congrArg (v63 (ix3 0 j k) + ·) (feat_prod 2 2 rfl slices_S2000x4_o0_2_S2000x1 x0 x1 j k)

/-- Feature 3's store payload (the sum, then laid out as a one-slab block). -/
theorem pay1_12_apply (x0 : Vec Ideal S2000x4 .i32) (x1 : Vec Ideal S2000x4 .f32) (v73 : Vec Ideal S1x1600x352 .f32) (j : Fin 1600) (k : Fin 352) :
    k0_pay1 (F := Ideal) (k0_pay12 (k0_pay4 x0) (k0_pay5 x0) (k0_pay7 x1) v73) (ix3 0 j k) = v73 (ix3 0 j k) + sumBlk x0 x1 j k 3 := by
  unfold k0_pay1 k0_pay12
  rw [shapeCast_ab_1ab_apply, addf_apply, shapeCast_1ab_ab_apply]
  exact congrArg (v73 (ix3 0 j k) + ·) (feat_prod 3 3 rfl slices_S2000x4_o0_3_S2000x1 x0 x1 j k)

/-- The reset payloads are zero everywhere. -/
theorem pay2_apply (i : S4x1600x352.Idx) : k0_pay2 (F := Ideal) i = 0 := by
  unfold k0_pay2
  exact Ideal.ofBits_zero_f32
theorem pay3_apply (i : S1600x352.Idx) : k0_pay3 (F := Ideal) i = 0 := by
  unfold k0_pay3
  exact Ideal.ofBits_zero_f32

end Cert.KernelIdeal.BlockPartial

end
-- ==== Proof.PointValues.lean ====
/- What one grid point leaves in the two accumulators, read at one index, at the exact values.

   At the first point the body clears both accumulators and then adds the block's contribution, so they end at the
   contribution alone. At every later point the body adds the contribution to what the point before left: the count
   accumulator as one store, the feature accumulator slab by slab, one feature each. -/
import proofs.«408289_j6614249636210_1_alg».proof.Proof.Gen.KernelIdeal.Frame
import proofs.«408289_j6614249636210_1_alg».proof.Proof.BlockPartial
import Idealize.ShloMosaic.Lib.Pipeline.Value
import Idealize.ShloMosaic.Lib.Tactic

noncomputable section

namespace Cert.KernelIdeal.PointValues

open Cert.KernelIdeal Cert.KernelIdeal.Gen Cert.Voxel
open Idealize.ShloMosaic Idealize.ShloMosaic.TcCoe Idealize.ShloMosaic.ValueIdx Idealize.SL.Sem
open scoped BigOperators

/-! ## The accumulators' rectangles

   The count accumulator is stored whole, at zero offsets. The feature accumulator is stored slab by slab: slab o is the
   rectangle of offsets (o, 0, 0) and sizes (1, 1600, 352), so index (0, j, k) of the slab is index (o, j, k) of the
   accumulator, and an index of another slab is outside it. -/

private theorem hz2 : (![0, 0] : Fin 2 → Nat) = fun _ => 0 := funext fun a => by fin_cases a <;> rfl
private theorem hz3 : (![0, 0, 0] : Fin 3 → Nat) = fun _ => 0 := funext fun a => by fin_cases a <;> rfl

section Slabs

variable {Val : EltTy → Type} {e : EltTy}

/-- Slab `o` of the feature accumulator, entered at (0, j, k), is the accumulator's index (o, j, k). -/
private theorem slab_emb (o : Nat) (ho : o < 4)
    (inb : ∀ a, (![o, 0, 0] : Fin 3 → Nat) a + (![1, 1600, 352] : Fin 3 → Nat) a ≤ S4x1600x352.size a)
    (j : Fin 1600) (k : Fin 352) :
    (Rect.unit (s := S4x1600x352) ![o, 0, 0] ![1, 1600, 352] inb).emb (ix3 (0 : Fin 1) j k) = ix3 (⟨o, ho⟩ : Fin 4) j k := by
  funext a
  apply Fin.ext
  match a with
  | ⟨0, _⟩ => show o + 1 * 0 = o; omega
  | ⟨1, _⟩ => show 0 + 1 * j.val = j.val; omega
  | ⟨2, _⟩ => show 0 + 1 * k.val = k.val; omega

/-- A load of slab `o` reads, at (0, j, k), the contents at (o, j, k). -/
private theorem ld_slab (o : Nat) (ho : o < 4)
    (inb : ∀ a, (![o, 0, 0] : Fin 3 → Nat) a + (![1, 1600, 352] : Fin 3 → Nat) a ≤ S4x1600x352.size a)
    (X : S4x1600x352.Idx → Val e) (j : Fin 1600) (k : Fin 352) :
    View.ld X (Rect.unit (s := S4x1600x352) ![o, 0, 0] ![1, 1600, 352] inb) (ix3 (0 : Fin 1) j k) = X (ix3 (⟨o, ho⟩ : Fin 4) j k) :=
  congrArg X (slab_emb o ho inb j k)

variable [∀ e, Nonempty (Val e)]

/-- The last store, into slab `o`, read at (o, j, k): its payload at (0, j, k). -/
private theorem canon_slab_hit (o : Nat) (ho : o < 4)
    (inb : ∀ a, (![o, 0, 0] : Fin 3 → Nat) a + (![1, 1600, 352] : Fin 3 → Nat) a ≤ S4x1600x352.size a)
    (w : (Rect.unit (s := S4x1600x352) ![o, 0, 0] ![1, 1600, 352] inb).shape.Idx → Val e)
    (L : List (View.Piece Val S4x1600x352 e)) (j : Fin 1600) (k : Fin 352) :
    View.canon ((⟨Rect.unit (s := S4x1600x352) ![o, 0, 0] ![1, 1600, 352] inb, w⟩ : View.Piece Val S4x1600x352 e) :: L)
      (ix3 (⟨o, ho⟩ : Fin 4) j k) = w (ix3 (0 : Fin 1) j k) := by
  rw [← slab_emb o ho inb j k]
  exact View.canon_cons_emb _ w L _

/-- The last store, into slab `o`, read in another slab: what the earlier stores left. -/
private theorem canon_slab_miss (o : Nat)
    (inb : ∀ a, (![o, 0, 0] : Fin 3 → Nat) a + (![1, 1600, 352] : Fin 3 → Nat) a ≤ S4x1600x352.size a)
    (w : (Rect.unit (s := S4x1600x352) ![o, 0, 0] ![1, 1600, 352] inb).shape.Idx → Val e)
    (L : List (View.Piece Val S4x1600x352 e)) (f : Fin 4) (hf : f.val ≠ o) (j : Fin 1600) (k : Fin 352) :
    View.canon ((⟨Rect.unit (s := S4x1600x352) ![o, 0, 0] ![1, 1600, 352] inb, w⟩ : View.Piece Val S4x1600x352 e) :: L)
      (ix3 f j k) = View.canon L (ix3 f j k) := by
  apply View.canon_cons_of_not_mem
  show ix3 f j k ∉ (Rect.unit (s := S4x1600x352) ![o, 0, 0] ![1, 1600, 352] inb).set
  rw [Rect.mem_set_unit]
  intro h
  have h0 := h 0
  change o ≤ f.val ∧ f.val < o + 1 at h0
  omega

end Slabs

/-- A load of slab `o` after the stores `L` reads, at (0, j, k), what they left at (o, j, k). -/
private theorem readCov_slab {Val : EltTy → Type} {e : EltTy} [∀ e, Nonempty (Val e)] {sig' : RefSig} {κ : Kind} {sp : Space}
    (v : View sig' κ sp S4x1600x352 e) (L : List (View.Piece Val S4x1600x352 e)) (o : Nat) (ho : o < 4)
    (inb : ∀ a, (![o, 0, 0] : Fin 3 → Nat) a + (![1, 1600, 352] : Fin 3 → Nat) a ≤ S4x1600x352.size a)
    (j : Fin 1600) (k : Fin 352) :
    v.readCov L (Rect.unit (s := S4x1600x352) ![o, 0, 0] ![1, 1600, 352] inb).toLoadRect (ix3 (0 : Fin 1) j k)
      = View.canon L (ix3 (⟨o, ho⟩ : Fin 4) j k) := by
  rw [View.readCov_eq_canon']
  exact congrArg (View.canon L) (slab_emb o ho inb j k)

/-! ## A later point -/

/-- A later point, the count accumulator: its one covering store's payload over what it held. -/
private theorem outB3_fn (c : Dev nD) (i : grid0.Coords) (arg1 : Memref sig .tc .vmem S2000x4 .i32) (harg1 : arg1.IsWhole)
    (arg2 : Memref sig .tc .vmem S2000x4 .f32) (harg2 : arg2.IsWhole) (arg3 : Memref sig .tc .vmem S4x1600x352 .f32) (harg3 : arg3.IsWhole)
    (arg4 : Memref sig .tc .vmem S1600x352 .f32) (harg4 : arg4.IsWhole) (hc0 : ¬cond0_0 i)
    (x0 : Vec Ideal S2000x4 .i32) (x1 : Vec Ideal S2000x4 .f32) (xo2 : Vec Ideal S4x1600x352 .f32) (xo3 : Vec Ideal S1600x352 .f32) :
    out0_B_3 (F := Ideal) c i arg1 harg1 arg2 harg2 arg3 harg3 arg4 harg4 hc0 x0 x1 xo2 xo3 = k0_pay6 (F := Ideal) x0 xo3 := by
  unfold out0_B_3
  rw [View.read_writes_eq_canon _ _ _ (cover0_B_3 c i arg1 harg1 arg2 harg2 arg3 harg3 arg4 harg4 hc0 x0 x1 xo2 xo3)]
  unfold kernelRun0_B
  dsimp only
  sl_unfold_words
  rw [View.canon_unit_zero hz2]
  simp only [View.readAt_eq_ld, harg1.read_unread, harg4.read_unread, View.ld_unit_zero (S := S2000x4) hz2, View.ld_unit_zero (S := S1600x352) hz2]

/-- A later point, the count accumulator at (j, k): what it held plus the block's count. -/
theorem outB3_apply (c : Dev nD) (i : grid0.Coords) (arg1 : Memref sig .tc .vmem S2000x4 .i32) (harg1 : arg1.IsWhole)
    (arg2 : Memref sig .tc .vmem S2000x4 .f32) (harg2 : arg2.IsWhole) (arg3 : Memref sig .tc .vmem S4x1600x352 .f32) (harg3 : arg3.IsWhole)
    (arg4 : Memref sig .tc .vmem S1600x352 .f32) (harg4 : arg4.IsWhole) (hc0 : ¬cond0_0 i)
    (x0 : Vec Ideal S2000x4 .i32) (x1 : Vec Ideal S2000x4 .f32) (xo2 : Vec Ideal S4x1600x352 .f32) (xo3 : Vec Ideal S1600x352 .f32)
    (j : Fin 1600) (k : Fin 352) :
    out0_B_3 (F := Ideal) c i arg1 harg1 arg2 harg2 arg3 harg3 arg4 harg4 hc0 x0 x1 xo2 xo3 (ix2 j k) = xo3 (ix2 j k) + cntBlk x0 j k := by
  rw [outB3_fn c i arg1 harg1 arg2 harg2 arg3 harg3 arg4 harg4 hc0 x0 x1 xo2 xo3]
  exact BlockPartial.pay6_apply x0 xo3 j k

/-- A later point, the feature accumulator as its four slab stores, each slab's payload over that slab of what it held. -/
private theorem outB2_fn (c : Dev nD) (i : grid0.Coords) (arg1 : Memref sig .tc .vmem S2000x4 .i32) (harg1 : arg1.IsWhole)
    (arg2 : Memref sig .tc .vmem S2000x4 .f32) (harg2 : arg2.IsWhole) (arg3 : Memref sig .tc .vmem S4x1600x352 .f32) (harg3 : arg3.IsWhole)
    (arg4 : Memref sig .tc .vmem S1600x352 .f32) (harg4 : arg4.IsWhole) (hc0 : ¬cond0_0 i)
    (x0 : Vec Ideal S2000x4 .i32) (x1 : Vec Ideal S2000x4 .f32) (xo2 : Vec Ideal S4x1600x352 .f32) (xo3 : Vec Ideal S1600x352 .f32) :
    out0_B_2 (F := Ideal) c i arg1 harg1 arg2 harg2 arg3 harg3 arg4 harg4 hc0 x0 x1 xo2 xo3
      = View.canon
        [⟨Rect.unit ![3, 0, 0] ![1, 1600, 352] inb_S4x1600x352_S1x1600x352_3_0_0,
            k0_pay1 (F := Ideal) (k0_pay12 (k0_pay4 x0) (k0_pay5 x0) (k0_pay7 x1)
              (View.ld xo2 (Rect.unit ![3, 0, 0] ![1, 1600, 352] inb_S4x1600x352_S1x1600x352_3_0_0)))⟩,
          ⟨Rect.unit ![2, 0, 0] ![1, 1600, 352] inb_S4x1600x352_S1x1600x352_2_0_0,
            k0_pay11 (F := Ideal) (k0_pay4 x0) (k0_pay5 x0) (k0_pay7 x1)
              (View.ld xo2 (Rect.unit ![2, 0, 0] ![1, 1600, 352] inb_S4x1600x352_S1x1600x352_2_0_0))⟩,
          ⟨Rect.unit ![1, 0, 0] ![1, 1600, 352] inb_S4x1600x352_S1x1600x352_1_0_0,
            k0_pay10 (F := Ideal) (k0_pay4 x0) (k0_pay5 x0) (k0_pay7 x1)
              (View.ld xo2 (Rect.unit ![1, 0, 0] ![1, 1600, 352] inb_S4x1600x352_S1x1600x352_1_0_0))⟩,
          ⟨Rect.unit ![0, 0, 0] ![1, 1600, 352] inb_S4x1600x352_S1x1600x352_0_0_0,
            k0_pay9 (F := Ideal) (k0_pay8 x0 x1)
              (View.ld xo2 (Rect.unit ![0, 0, 0] ![1, 1600, 352] inb_S4x1600x352_S1x1600x352_0_0_0))⟩] := by
  unfold out0_B_2
  rw [View.read_writes_eq_canon _ _ _ (cover0_B_2 c i arg1 harg1 arg2 harg2 arg3 harg3 arg4 harg4 hc0 x0 x1 xo2 xo3)]
  unfold kernelRun0_B
  dsimp only
  sl_unfold_words
  simp only [View.readAt_eq_ld, harg1.read_unread, harg2.read_unread, harg3.read_unread, View.ld_unit_zero (S := S2000x4) hz2]

/-- A later point, the feature accumulator at (f, j, k): what it held plus the block's sum of feature f. Slab f is the
    last store that holds the index; its payload reads that slab of what the accumulator held. -/
theorem outB2_apply (c : Dev nD) (i : grid0.Coords) (arg1 : Memref sig .tc .vmem S2000x4 .i32) (harg1 : arg1.IsWhole)
    (arg2 : Memref sig .tc .vmem S2000x4 .f32) (harg2 : arg2.IsWhole) (arg3 : Memref sig .tc .vmem S4x1600x352 .f32) (harg3 : arg3.IsWhole)
    (arg4 : Memref sig .tc .vmem S1600x352 .f32) (harg4 : arg4.IsWhole) (hc0 : ¬cond0_0 i)
    (x0 : Vec Ideal S2000x4 .i32) (x1 : Vec Ideal S2000x4 .f32) (xo2 : Vec Ideal S4x1600x352 .f32) (xo3 : Vec Ideal S1600x352 .f32)
    (f : Fin 4) (j : Fin 1600) (k : Fin 352) :
    out0_B_2 (F := Ideal) c i arg1 harg1 arg2 harg2 arg3 harg3 arg4 harg4 hc0 x0 x1 xo2 xo3 (ix3 f j k) = xo2 (ix3 f j k) + sumBlk x0 x1 j k f := by
  rw [outB2_fn c i arg1 harg1 arg2 harg2 arg3 harg3 arg4 harg4 hc0 x0 x1 xo2 xo3]
  match f with
  | ⟨0, h⟩ =>
    rw [canon_slab_miss 3 _ _ _ ⟨0, h⟩ (by show (0 : ℕ) ≠ 3; decide) j k, canon_slab_miss 2 _ _ _ ⟨0, h⟩ (by show (0 : ℕ) ≠ 2; decide) j k,
      canon_slab_miss 1 _ _ _ ⟨0, h⟩ (by show (0 : ℕ) ≠ 1; decide) j k, canon_slab_hit 0 h _ _ _ j k]
    refine (BlockPartial.pay9_apply _ _ j k).trans ?_
    rw [ld_slab 0 h, BlockPartial.pay8_apply]
    rfl
  | ⟨1, h⟩ =>
    rw [canon_slab_miss 3 _ _ _ ⟨1, h⟩ (by show (1 : ℕ) ≠ 3; decide) j k, canon_slab_miss 2 _ _ _ ⟨1, h⟩ (by show (1 : ℕ) ≠ 2; decide) j k,
      canon_slab_hit 1 h _ _ _ j k]
    refine (BlockPartial.pay10_apply x0 x1 _ j k).trans ?_
    rw [ld_slab 1 h]
    rfl
  | ⟨2, h⟩ =>
    rw [canon_slab_miss 3 _ _ _ ⟨2, h⟩ (by show (2 : ℕ) ≠ 3; decide) j k, canon_slab_hit 2 h _ _ _ j k]
    refine (BlockPartial.pay11_apply x0 x1 _ j k).trans ?_
    rw [ld_slab 2 h]
    rfl
  | ⟨3, h⟩ =>
    rw [canon_slab_hit 3 h _ _ _ j k]
    refine (BlockPartial.pay1_12_apply x0 x1 _ j k).trans ?_
    rw [ld_slab 3 h]
    rfl

/-! ## The first point -/

/-- The first point, the count accumulator: the count store's payload over the cleared buffer read back. -/
private theorem outA3_fn (c : Dev nD) (i : grid0.Coords) (arg1 : Memref sig .tc .vmem S2000x4 .i32) (harg1 : arg1.IsWhole)
    (arg2 : Memref sig .tc .vmem S2000x4 .f32) (harg2 : arg2.IsWhole) (arg3 : Memref sig .tc .vmem S4x1600x352 .f32) (harg3 : arg3.IsWhole)
    (arg4 : Memref sig .tc .vmem S1600x352 .f32) (harg4 : arg4.IsWhole) (hc0 : cond0_0 i)
    (x0 : Vec Ideal S2000x4 .i32) (x1 : Vec Ideal S2000x4 .f32) :
    out0_A_3 (F := Ideal) c i arg1 harg1 arg2 harg2 arg3 harg3 arg4 harg4 hc0 x0 x1 = k0_pay6 (F := Ideal) x0 (k0_pay3 (F := Ideal)) := by
  unfold out0_A_3
  rw [View.read_writes_eq_canon _ _ _ (cover0_A_3 c i arg1 harg1 arg2 harg2 arg3 harg3 arg4 harg4 hc0 x0 x1)]
  unfold kernelRun0_A
  dsimp only
  sl_unfold_words
  rw [View.canon_cons_unit_zero (S := S1600x352) hz2]
  simp only [View.readAt_eq_ld, harg1.read_unread, View.ld_unit_zero (S := S2000x4) hz2, View.readCov_unit_zero (S := S1600x352) _ hz2]

/-- The first point, the count accumulator at (j, k): the block's count, added to the zero read back. -/
theorem outA3_apply (c : Dev nD) (i : grid0.Coords) (arg1 : Memref sig .tc .vmem S2000x4 .i32) (harg1 : arg1.IsWhole)
    (arg2 : Memref sig .tc .vmem S2000x4 .f32) (harg2 : arg2.IsWhole) (arg3 : Memref sig .tc .vmem S4x1600x352 .f32) (harg3 : arg3.IsWhole)
    (arg4 : Memref sig .tc .vmem S1600x352 .f32) (harg4 : arg4.IsWhole) (hc0 : cond0_0 i)
    (x0 : Vec Ideal S2000x4 .i32) (x1 : Vec Ideal S2000x4 .f32) (j : Fin 1600) (k : Fin 352) :
    out0_A_3 (F := Ideal) c i arg1 harg1 arg2 harg2 arg3 harg3 arg4 harg4 hc0 x0 x1 (ix2 j k) = cntBlk x0 j k := by
  rw [outA3_fn c i arg1 harg1 arg2 harg2 arg3 harg3 arg4 harg4 hc0 x0 x1]
  refine (BlockPartial.pay6_apply x0 _ j k).trans ?_
  rw [BlockPartial.pay3_apply, zero_add]

/-- The first point, the feature accumulator at (f, j, k): the block's sum of feature f. Slab f's store is the last that
    holds the index; the slab it read back was still as the clearing store left it, zero, the earlier slab stores lying
    in other slabs. -/
theorem outA2_apply (c : Dev nD) (i : grid0.Coords) (arg1 : Memref sig .tc .vmem S2000x4 .i32) (harg1 : arg1.IsWhole)
    (arg2 : Memref sig .tc .vmem S2000x4 .f32) (harg2 : arg2.IsWhole) (arg3 : Memref sig .tc .vmem S4x1600x352 .f32) (harg3 : arg3.IsWhole)
    (arg4 : Memref sig .tc .vmem S1600x352 .f32) (harg4 : arg4.IsWhole) (hc0 : cond0_0 i)
    (x0 : Vec Ideal S2000x4 .i32) (x1 : Vec Ideal S2000x4 .f32) (f : Fin 4) (j : Fin 1600) (k : Fin 352) :
    out0_A_2 (F := Ideal) c i arg1 harg1 arg2 harg2 arg3 harg3 arg4 harg4 hc0 x0 x1 (ix3 f j k) = sumBlk x0 x1 j k f := by
  unfold out0_A_2
  rw [View.read_writes_eq_canon _ _ _ (cover0_A_2 c i arg1 harg1 arg2 harg2 arg3 harg3 arg4 harg4 hc0 x0 x1)]
  unfold kernelRun0_A
  dsimp only
  sl_unfold_words
  simp only [View.readAt_eq_ld, harg1.read_unread, harg2.read_unread, View.ld_unit_zero (S := S2000x4) hz2]
  match f with
  | ⟨0, h⟩ =>
    rw [canon_slab_miss 3 _ _ _ ⟨0, h⟩ (by show (0 : ℕ) ≠ 3; decide) j k, canon_slab_miss 2 _ _ _ ⟨0, h⟩ (by show (0 : ℕ) ≠ 2; decide) j k,
      canon_slab_miss 1 _ _ _ ⟨0, h⟩ (by show (0 : ℕ) ≠ 1; decide) j k, canon_slab_hit 0 h _ _ _ j k]
    refine (BlockPartial.pay9_apply _ _ j k).trans ?_
    rw [readCov_slab _ _ 0 h, View.canon_unit_zero hz3, BlockPartial.pay2_apply, zero_add, BlockPartial.pay8_apply]
    rfl
  | ⟨1, h⟩ =>
    rw [canon_slab_miss 3 _ _ _ ⟨1, h⟩ (by show (1 : ℕ) ≠ 3; decide) j k, canon_slab_miss 2 _ _ _ ⟨1, h⟩ (by show (1 : ℕ) ≠ 2; decide) j k,
      canon_slab_hit 1 h _ _ _ j k]
    refine (BlockPartial.pay10_apply x0 x1 _ j k).trans ?_
    rw [readCov_slab _ _ 1 h, canon_slab_miss 0 _ _ _ ⟨1, h⟩ (by show (1 : ℕ) ≠ 0; decide) j k,
      View.canon_unit_zero hz3, BlockPartial.pay2_apply, zero_add]
    rfl
  | ⟨2, h⟩ =>
    rw [canon_slab_miss 3 _ _ _ ⟨2, h⟩ (by show (2 : ℕ) ≠ 3; decide) j k, canon_slab_hit 2 h _ _ _ j k]
    refine (BlockPartial.pay11_apply x0 x1 _ j k).trans ?_
    rw [readCov_slab _ _ 2 h, canon_slab_miss 1 _ _ _ ⟨2, h⟩ (by show (2 : ℕ) ≠ 1; decide) j k,
      canon_slab_miss 0 _ _ _ ⟨2, h⟩ (by show (2 : ℕ) ≠ 0; decide) j k,
      View.canon_unit_zero hz3, BlockPartial.pay2_apply, zero_add]
    rfl
  | ⟨3, h⟩ =>
    rw [canon_slab_hit 3 h _ _ _ j k]
    refine (BlockPartial.pay1_12_apply x0 x1 _ j k).trans ?_
    rw [readCov_slab _ _ 3 h, canon_slab_miss 2 _ _ _ ⟨3, h⟩ (by show (3 : ℕ) ≠ 2; decide) j k,
      canon_slab_miss 1 _ _ _ ⟨3, h⟩ (by show (3 : ℕ) ≠ 1; decide) j k,
      canon_slab_miss 0 _ _ _ ⟨3, h⟩ (by show (3 : ℕ) ≠ 0; decide) j k,
      View.canon_unit_zero hz3, BlockPartial.pay2_apply, zero_add]
    rfl

end Cert.KernelIdeal.PointValues

end
-- ==== Proof.VoxelBridge.lean ====
/- Why the blocks' indicator products add up to the segment sum.

   With every coordinate in range no word arithmetic wraps: the row word of a point is the number (b·1 + z)·400 + y
   below 1600 and its cell word the number 352·row + x below 563200, so the cell word, read signed, names cell
   352·row + x. Since x is below 352, cell 352·j + k is named exactly by the points with row j and x = k. The product
   of the two indicators is then the indicator of "this point lies in cell (j, k)", a sum of indicators times values
   is the sum of the values over the points indicated, and the points of all blocks are all the points, each once. -/
import proofs.«408289_j6614249636210_1_alg».proof.Proof.VoxelSpec

noncomputable section

namespace Cert.Voxel

open Idealize.ShloMosaic Idealize.ShloMosaic.ValueIdx Cert.ScatterGather
open scoped BigOperators

theorem upTo_zero : upTo 0 = {(⟨0, by decide⟩ : Fin 1000)} := by
  ext s
  simp only [upTo, Finset.mem_filter, Finset.mem_univ, true_and, Finset.mem_singleton, Fin.ext_iff]
  omega

theorem upTo_succ (n : ℕ) (h : n + 1 < 1000) : upTo (n + 1) = insert (⟨n + 1, h⟩ : Fin 1000) (upTo n) := by
  ext s
  simp only [upTo, Finset.mem_filter, Finset.mem_univ, true_and, Finset.mem_insert, Fin.ext_iff]
  omega

theorem not_mem_upTo (n : ℕ) (h : n + 1 < 1000) : (⟨n + 1, h⟩ : Fin 1000) ∉ upTo n := by
  simp only [upTo, Finset.mem_filter, Finset.mem_univ, true_and]
  omega

theorem upTo_last : upTo 999 = Finset.univ := by
  ext s
  have := s.isLt
  simp only [upTo, Finset.mem_filter, Finset.mem_univ, true_and, iff_true]
  omega

/-! ## A block's words are the cloud's words at the block's points -/

private theorem byB_blkOf (C : Coors) (s : Fin 1000) (n : Fin 2000) : byB (blkOf C s) n = byW C (pt s n) := rfl

private theorem blkOf_x (C : Coors) (s : Fin 1000) (n : Fin 2000) :
    (blkOf C s) (ix2 n 3) = C (ix2 (pt s n) 3) := rfl

private theorem fblkOf_at (X : Feats) (s : Fin 1000) (n : Fin 2000) (c : Fin 4) :
    (fblkOf X s) (ix2 n c) = X (ix2 (pt s n) c) := rfl

/-! ## In range, no word arithmetic wraps -/

/-- The row word is the number (b·1 + z)·400 + y. -/
private theorem byW_toNat (C : Coors) (hC : InGrid C) (e : Fin 2000000) :
    (byW C e).toNat = ((C (ix2 e 0)).toNat * 1 + (C (ix2 e 1)).toNat) * 400 + (C (ix2 e 2)).toNat := by
  obtain ⟨h0, h1, h2, _⟩ := hC e
  have e1 : (1#32 : BitVec 32).toNat = 1 := rfl
  have e400 : (400#32 : BitVec 32).toNat = 400 := rfl
  unfold byW
  rw [BitVec.toNat_add, BitVec.toNat_mul, BitVec.toNat_add, BitVec.toNat_mul, e1, e400]
  omega

/-- The row word is below 1600. -/
private theorem byW_lt (C : Coors) (hC : InGrid C) (e : Fin 2000000) : (byW C e).toNat < 1600 := by
  obtain ⟨h0, h1, h2, _⟩ := hC e
  rw [byW_toNat C hC e]
  omega

/-- The cell word is the number 352·row + x. -/
private theorem segW_toNat (C : Coors) (hC : InGrid C) (e : Fin 2000000) :
    (segW C e).toNat = (byW C e).toNat * 352 + (C (ix2 e 3)).toNat := by
  have hb := byW_lt C hC e
  have h3 := (hC e).2.2.2
  have e352 : (352#32 : BitVec 32).toNat = 352 := rfl
  unfold segW
  rw [BitVec.toNat_add, BitVec.toNat_mul, e352]
  omega

/-- The cell word, read signed, names the cell of its number. -/
private theorem tgtW_segW (C : Coors) (hC : InGrid C) (e : Fin 2000000) (s : Fin 563200) :
    tgtW 563200 (segW C e) = some s ↔ (segW C e).toNat = s.val := by
  have hb := byW_lt C hC e
  have h3 := (hC e).2.2.2
  have hn := segW_toNat C hC e
  have hti : (segW C e).toInt = ((segW C e).toNat : Int) :=
    StableHlo.Predicate.toInt_eq_toNat_of_lt (by omega)
  unfold tgtW
  rw [dif_pos ⟨by omega, by omega⟩]
  simp only [Option.some.injEq, Fin.ext_iff]
  omega

/-- A point lies in cell (j, k) exactly when its row word is j and its x is k. -/
private theorem cell_iff (C : Coors) (hC : InGrid C) (e : Fin 2000000) (j : Fin 1600) (k : Fin 352) :
    (BitVec.ofNat 32 j.val = byW C e ∧ C (ix2 e 3) = BitVec.ofNat 32 k.val) ↔
      tgtW 563200 (segW C e) = some (cell j k) := by
  have hb := byW_lt C hC e
  have hx := (hC e).2.2.2
  have hj := j.isLt
  have hk := k.isLt
  rw [tgtW_segW C hC e, segW_toNat C hC e]
  show _ ↔ (byW C e).toNat * 352 + (C (ix2 e 3)).toNat = 352 * j.val + k.val
  constructor
  · rintro ⟨h1, h2⟩
    have h1' : (byW C e).toNat = j.val := by
      rw [← h1, BitVec.toNat_ofNat]; omega
    have h2' : (C (ix2 e 3)).toNat = k.val := by
      rw [h2, BitVec.toNat_ofNat]; omega
    omega
  · intro h
    constructor
    · apply BitVec.eq_of_toNat_eq
      rw [BitVec.toNat_ofNat]; omega
    · apply BitVec.eq_of_toNat_eq
      rw [BitVec.toNat_ofNat]; omega

/-! ## Products of indicators -/

private theorem ind_mul_ind (p q : Prop) [Decidable p] [Decidable q] : ind p * ind q = ind (p ∧ q) := by
  unfold ind
  by_cases hp : p <;> by_cases hq : q <;> simp [hp, hq]

private theorem ind_mul_ind_mul (p q : Prop) [Decidable p] [Decidable q] (x : EReal) :
    ind p * (ind q * x) = if p ∧ q then x else 0 := by
  unfold ind
  by_cases hp : p <;> by_cases hq : q <;> simp [hp, hq]

/-! ## The points of all blocks are all the points, each once -/

/-- Block and place within the block against the point's number: 2000·s + n, back by quotient and remainder. -/
private def ptEquiv : Fin 1000 × Fin 2000 ≃ Fin 2000000 where
  toFun p := pt p.1 p.2
  invFun e := (⟨e.val / 2000, by have := e.isLt; omega⟩, ⟨e.val % 2000, by omega⟩)
  left_inv p := by
    obtain ⟨s, n⟩ := p
    have hs := s.isLt
    have hn := n.isLt
    refine Prod.ext (Fin.ext ?_) (Fin.ext ?_)
    · show (2000 * s.val + n.val) / 2000 = s.val
      omega
    · show (2000 * s.val + n.val) % 2000 = n.val
      omega
  right_inv e := by
    refine Fin.ext ?_
    show 2000 * (e.val / 2000) + e.val % 2000 = e.val
    omega

private theorem sum_pt {M : Type*} [AddCommMonoid M] (f : Fin 2000000 → M) :
    ∑ s : Fin 1000, ∑ n : Fin 2000, f (pt s n) = ∑ e : Fin 2000000, f e :=
  (Fintype.sum_prod_type' (fun s n => f (pt s n))).symm.trans (Equiv.sum_comp ptEquiv f)

/-- THE COUNT: with every coordinate in range, the blocks' indicator products add up to the segment count. -/
theorem cnt_bridge (C : Coors) (hC : InGrid C) (j : Fin 1600) (k : Fin 352) :
    ∑ s : Fin 1000, cntBlk (blkOf C s) j k = cntAt C (cell j k) := by
  rw [cntAt, Finset.sum_filter, ← sum_pt]
  refine Finset.sum_congr rfl (fun s _ => ?_)
  unfold cntBlk
  refine Finset.sum_congr rfl (fun n _ => ?_)
  rw [byB_blkOf, blkOf_x, ind_mul_ind]
  unfold ind
  exact if_congr (cell_iff C hC (pt s n) j k) rfl rfl

/-- THE SUM: likewise the feature-weighted products add up to the segment sum. -/
theorem sum_bridge (C : Coors) (hC : InGrid C) (X : Feats) (j : Fin 1600) (k : Fin 352) (c : Fin 4) :
    ∑ s : Fin 1000, sumBlk (blkOf C s) (fblkOf X s) j k c = sumAt C X (cell j k) c := by
  rw [sumAt, Finset.sum_filter, ← sum_pt]
  refine Finset.sum_congr rfl (fun s _ => ?_)
  unfold sumBlk
  refine Finset.sum_congr rfl (fun n _ => ?_)
  rw [byB_blkOf, blkOf_x, fblkOf_at, ind_mul_ind_mul]
  exact if_congr (cell_iff C hC (pt s n) j k) rfl rfl

end Cert.Voxel

end
-- ==== Proof.RunningSum.lean ====
/- The accumulators after each grid point, as sums over the blocks so far.

   Grid point t stages block t of the coordinates and of the features: rows 2000·t to 2000·t + 1999 of each array.
   The first point leaves the first block's contribution; every later point adds its block's. So after point n each
   accumulator entry is the sum, over the blocks up to n, of that block's contribution — by induction on the point. -/
import proofs.«408289_j6614249636210_1_alg».proof.Proof.PointValues
import proofs.«408289_j6614249636210_1_alg».proof.Proof.VoxelBridge

noncomputable section

namespace Cert.KernelIdeal.RunningSum

open Cert.KernelIdeal Cert.KernelIdeal.Gen Cert.Voxel
open Idealize.ShloMosaic Idealize.ShloMosaic.TcCoe Idealize.ShloMosaic.ValueIdx Idealize.SL.Sem
open scoped BigOperators

variable (m : (ℓ : Loc nD τ sig) → Buf (Elt Ideal) ℓ)

/-- The coordinate and feature arrays the launch memory holds on core `c`. -/
abbrev coorsOf (c : Dev nD) : Coors := m ((c : Thread nD τ).loc main_arg1)
abbrev featsOf (c : Dev nD) : Feats := m ((c : Thread nD τ).loc main_arg0)

/-- A grid point as a block number. -/
def blockNo (t : Fin cfg0.N) : Fin 1000 := ⟨t.val, lt_of_lt_of_eq t.isLt N_0⟩

/-- At grid point t both input windows sit at block (t, 0) of their arrays. -/
private theorem widx0 : ∀ t : Fin cfg0.N, win0_0.index t 0 = t.val ∧ win0_0.index t 1 = 0 :=
  (by decide +kernel : ∀ t : Fin grid0.N, win0_0.index t 0 = t.val ∧ win0_0.index t 1 = 0)
private theorem widx1 : ∀ t : Fin cfg0.N, win0_1.index t 0 = t.val ∧ win0_1.index t 1 = 0 :=
  (by decide +kernel : ∀ t : Fin grid0.N, win0_1.index t 0 = t.val ∧ win0_1.index t 1 = 0)

/-- Window 0's block at point t is block t of the coordinates … -/
theorem iblk_coors (c : Dev nD) (t : Fin cfg0.N) :
    (iblk m c 0 t : Vec Ideal S2000x4 .i32) = blkOf (coorsOf m c) (blockNo t) := by
  -- entry (n, q) of the block is entry (2000·t + n, q) of the array: the block's offsets are (2000·t, 0)
  have hi := widx0 t
  funext j
  unfold iblk
  rw [View.read_apply]
  show V m c main_arg1 _ = m (c.tc.loc main_arg1) _
  unfold V
  congr 1
  funext a
  apply Fin.ext
  match a with
  | ⟨0, _⟩ =>
    show win0_0.index t 0 * 2000 + 1 * (j 0).val = 2000 * t.val + (j 0).val
    rw [hi.1]; omega
  | ⟨1, _⟩ =>
    show win0_0.index t 1 * 4 + 1 * (j 1).val = (j 1).val
    rw [hi.2]; omega

/-- … and window 1's is block t of the features. -/
theorem iblk_feats (c : Dev nD) (t : Fin cfg0.N) :
    (iblk m c 1 t : Vec Ideal S2000x4 .f32) = fblkOf (featsOf m c) (blockNo t) := by
  have hi := widx1 t
  funext j
  unfold iblk
  rw [View.read_apply]
  show V m c main_arg0 _ = m (c.tc.loc main_arg0) _
  unfold V
  congr 1
  funext a
  apply Fin.ext
  match a with
  | ⟨0, _⟩ =>
    show win0_1.index t 0 * 2000 + 1 * (j 0).val = 2000 * t.val + (j 0).val
    rw [hi.1]; omega
  | ⟨1, _⟩ =>
    show win0_1.index t 1 * 4 + 1 * (j 1).val = (j 1).val
    rw [hi.2]; omega

/-- The count accumulator after point n, at (j, k). -/
theorem cnt_running (c : Dev nD) : ∀ (n : ℕ) (h : n < cfg0.N) (j : Fin 1600) (k : Fin 352),
    (outsAt0 m c n h).2 (ix2 j k) = ∑ s ∈ upTo n, cntBlk (blkOf (coorsOf m c) s) j k := by
  intro n
  induction n with
  | zero =>
    -- the first point leaves block 0's count alone
    intro h j k
    rw [outsAt0_A m c ⟨0, h⟩ rfl]
    dsimp only
    rw [PointValues.outA3_apply c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) ((hcond0_0 ⟨0, h⟩).mpr rfl)
      (iblk m c 0 ⟨0, h⟩) (iblk m c 1 ⟨0, h⟩) j k]
    rw [iblk_coors m c ⟨0, h⟩, upTo_zero, Finset.sum_singleton]
    rfl
  | succ n ih =>
    -- a later point adds its block's count to the sum over the blocks before it
    intro h j k
    have hN : n + 1 < 1000 := lt_of_lt_of_eq h N_0
    have hB : ¬(⟨n + 1, h⟩ : Fin cfg0.N).val % 1000 = 0 := by dsimp only; omega
    rw [outsAt0_B m c ⟨n + 1, h⟩ hB]
    dsimp only
    rw [PointValues.outB3_apply c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (fun hh => hB ((hcond0_0 ⟨n + 1, h⟩).mp hh))
      (iblk m c 0 ⟨n + 1, h⟩) (iblk m c 1 ⟨n + 1, h⟩) _ _ j k]
    show (outsAt0 m c n (Nat.lt_of_succ_lt h)).2 (ix2 j k) + _ = _
    rw [ih (Nat.lt_of_succ_lt h) j k, iblk_coors m c ⟨n + 1, h⟩, upTo_succ n hN, Finset.sum_insert (not_mem_upTo n hN), add_comm]
    rfl

/-- The feature accumulator after point n, at (f, j, k). -/
theorem sum_running (c : Dev nD) : ∀ (n : ℕ) (h : n < cfg0.N) (f : Fin 4) (j : Fin 1600) (k : Fin 352),
    (outsAt0 m c n h).1 (ix3 f j k) = ∑ s ∈ upTo n, sumBlk (blkOf (coorsOf m c) s) (fblkOf (featsOf m c) s) j k f := by
  intro n
  induction n with
  | zero =>
    -- the first point leaves block 0's sum of feature f alone
    intro h f j k
    rw [outsAt0_A m c ⟨0, h⟩ rfl]
    dsimp only
    rw [PointValues.outA2_apply c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) ((hcond0_0 ⟨0, h⟩).mpr rfl)
      (iblk m c 0 ⟨0, h⟩) (iblk m c 1 ⟨0, h⟩) f j k]
    rw [iblk_coors m c ⟨0, h⟩, iblk_feats m c ⟨0, h⟩, upTo_zero, Finset.sum_singleton]
    rfl
  | succ n ih =>
    -- a later point adds its block's sum to the sum over the blocks before it
    intro h f j k
    have hN : n + 1 < 1000 := lt_of_lt_of_eq h N_0
    have hB : ¬(⟨n + 1, h⟩ : Fin cfg0.N).val % 1000 = 0 := by dsimp only; omega
    rw [outsAt0_B m c ⟨n + 1, h⟩ hB]
    dsimp only
    rw [PointValues.outB2_apply c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (fun hh => hB ((hcond0_0 ⟨n + 1, h⟩).mp hh))
      (iblk m c 0 ⟨n + 1, h⟩) (iblk m c 1 ⟨n + 1, h⟩) _ _ f j k]
    show (outsAt0 m c n (Nat.lt_of_succ_lt h)).1 (ix3 f j k) + _ = _
    rw [ih (Nat.lt_of_succ_lt h) f j k, iblk_coors m c ⟨n + 1, h⟩, iblk_feats m c ⟨n + 1, h⟩, upTo_succ n hN,
      Finset.sum_insert (not_mem_upTo n hN), add_comm]
    rfl

end Cert.KernelIdeal.RunningSum

end
-- ==== Proof.KernelResult.lean ====
/- The kernel program's two results, at the exact values.

   The accumulators are written back once, after the last grid point, and each one's block is its whole array: the
   arrays end at what the last point left, the sums over all 1000 blocks. Then the host lays the feature sums out
   cell-major (cells × features), flattens the counts, and divides each cell's sums by its count, or by one where the
   count is below one. Cell s of the flattened arrays is row s / 352, column s % 352 of the accumulators. With every
   coordinate in range the sums over the blocks are the segment sums and the segment counts of the whole cloud. -/
import proofs.«408289_j6614249636210_1_alg».proof.Proof.RunningSum
import Idealize.ShloMosaic.Lib.StableHlo.Run

noncomputable section

namespace Cert.KernelIdeal.KernelResult

open Cert.KernelIdeal Cert.KernelIdeal.Gen Cert.Voxel Cert.KernelIdeal.RunningSum
open Idealize.ShloMosaic Idealize.ShloMosaic.TcCoe Idealize.ShloMosaic.ValueIdx Idealize.SL.Sem
open Idealize.ShloMosaic.Pipeline (Dat)
open scoped BigOperators

/-! ## The arrays after the run: what the last point left -/

section AnyValues

variable {F : FTy → Type} [FloatOps F]
variable (m : (ℓ : Loc nD τ sig) → Buf (Elt F) ℓ) (ρ : Dev nD → PrngReg)

theorem h999 : 999 < cfg0.N := by rw [show cfg0.N = 1000 from N_0]; decide

/-- The last grid point. -/
abbrev tLast : Fin cfg0.N := ⟨999, h999⟩

/-- Both accumulator windows sit at block index zero at every point: their one block is the whole array. -/
theorem idx3 : ∀ t : Fin cfg0.N, win0_3.index t 0 = 0 ∧ win0_3.index t 1 = 0 :=
  (by decide +kernel : ∀ t : Fin grid0.N, win0_3.index t 0 = 0 ∧ win0_3.index t 1 = 0)

theorem idx2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)

theorem blk3 : ∀ t : Fin cfg0.N, win0_3.index t 0 * win0_3.size 0 = 0 ∧ win0_3.xsize (grid0.coords t) 0 = 1600
    ∧ win0_3.index t 1 * win0_3.size 1 = 0 ∧ win0_3.xsize (grid0.coords t) 1 = 352 :=
  (by decide +kernel : ∀ t : Fin grid0.N, win0_3.index t 0 * win0_3.size 0 = 0 ∧ win0_3.xsize (grid0.coords t) 0 = 1600
    ∧ win0_3.index t 1 * win0_3.size 1 = 0 ∧ win0_3.xsize (grid0.coords t) 1 = 352)

theorem blk2 : ∀ t : Fin cfg0.N, win0_2.index t 0 * win0_2.size 0 = 0 ∧ win0_2.xsize (grid0.coords t) 0 = 4
    ∧ win0_2.index t 1 * win0_2.size 1 = 0 ∧ win0_2.xsize (grid0.coords t) 1 = 1600
    ∧ win0_2.index t 2 * win0_2.size 2 = 0 ∧ win0_2.xsize (grid0.coords t) 2 = 352 :=
  (by decide +kernel : ∀ t : Fin grid0.N, win0_2.index t 0 * win0_2.size 0 = 0 ∧ win0_2.xsize (grid0.coords t) 0 = 4
    ∧ win0_2.index t 1 * win0_2.size 1 = 0 ∧ win0_2.xsize (grid0.coords t) 1 = 1600
    ∧ win0_2.index t 2 * win0_2.size 2 = 0 ∧ win0_2.xsize (grid0.coords t) 2 = 352)

/-- The accumulators' contents after a point numbered 999 are those after the last point. -/
theorem outsAt_last (c : Dev nD) (n : ℕ) (h : n < cfg0.N) (e : n = 999) : outsAt0 m c n h = outsAt0 m c 999 h999 := by
  subst e; rfl

/-- The one write-back of the counts, after the last point, writes what that point left: the block, read through
    zero offsets, is the array. -/
theorem flushed3_eq (c : Dev nD) (t : Fin cfg0.N) (hf : (cfg0.win 3).flush t = true) :
    (dats m 0 c).flushed 3 t = ((cfg0.win 3).blk t).view.read (Elt F) ((outsAt0 m c 999 h999).2 : Buf (Elt F) ((c : Thread nD τ).loc main_v0_1)) := by
  have hN : cfg0.N = 1000 := N_0
  have h3 : t.val = 999 := by have := (flush0_3 t).mp hf; have := t.isLt; omega
  show (cfg0.win 3).cut (grid0.coords t) ((dats m 0 c).after 3 t) = _
  rw [after0_3, outsAt_last m c t.val t.isLt h3]
  funext j
  rw [View.read_apply]
  refine Eq.trans ?_ (cast_eq _ _).symm
  refine congrArg (outsAt0 m c 999 h999).2 ?_
  funext a
  apply Fin.ext
  have hidx : (cfg0.win 3).index t a = 0 := by
    have hi := idx3 t
    match a with
    | ⟨0, _⟩ => exact hi.1
    | ⟨1, _⟩ => exact hi.2
  exact ((cfg0.win 3).rect_emb_val_of_index_zero t a hidx j).symm

/-- So the counts array ends at what the last point left. -/
theorem final3 (c : Dev nD) : (dats m 0 c).arrAt 3 cfg0.N = (outsAt0 m c 999 h999).2 :=
  (dats m 0 c).arrAt_eq_of_cover 3 ((outsAt0 m c 999 h999).2 : Buf (Elt F) ((c : Thread nD τ).loc main_v0_1)) (flushed3_eq m c) fun i =>
    ⟨tLast, (flush0_3 tLast).mpr rfl, by
      show i ∈ ((View.whole main_v0_1).slice (win0_3.rect tLast)).set
      rw [View.set_slice_whole, Rect.mem_set_unit]
      intro a
      have h0 : (i 0 : Nat) < 1600 := (i 0).isLt
      have h1 : (i 1 : Nat) < 352 := (i 1).isLt
      have hb := blk3 tLast
      match a with
      | ⟨0, _⟩ => show win0_3.index tLast 0 * win0_3.size 0 ≤ (i 0 : Nat) ∧ (i 0 : Nat) < win0_3.index tLast 0 * win0_3.size 0 + win0_3.xsize (grid0.coords tLast) 0
                  rw [hb.1, hb.2.1]; omega
      | ⟨1, _⟩ => show win0_3.index tLast 1 * win0_3.size 1 ≤ (i 1 : Nat) ∧ (i 1 : Nat) < win0_3.index tLast 1 * win0_3.size 1 + win0_3.xsize (grid0.coords tLast) 1
                  rw [hb.2.2.1, hb.2.2.2]; omega⟩

/-- Likewise the one write-back of the feature sums. -/
theorem flushed2_eq (c : Dev nD) (t : Fin cfg0.N) (hf : (cfg0.win 2).flush t = true) :
    (dats m 0 c).flushed 2 t = ((cfg0.win 2).blk t).view.read (Elt F) ((outsAt0 m c 999 h999).1 : Buf (Elt F) ((c : Thread nD τ).loc main_v0_0)) := by
  have hN : cfg0.N = 1000 := N_0
  have h3 : t.val = 999 := by have := (flush0_2 t).mp hf; have := t.isLt; omega
  show (cfg0.win 2).cut (grid0.coords t) ((dats m 0 c).after 2 t) = _
  rw [after0_2, outsAt_last m c t.val t.isLt h3]
  funext j
  rw [View.read_apply]
  refine Eq.trans ?_ (cast_eq _ _).symm
  refine congrArg (outsAt0 m c 999 h999).1 ?_
  funext a
  apply Fin.ext
  have hidx : (cfg0.win 2).index t a = 0 := by
    have hi := idx2 t
    match a with
    | ⟨0, _⟩ => exact hi.1
    | ⟨1, _⟩ => exact hi.2.1
    | ⟨2, _⟩ => exact hi.2.2
  exact ((cfg0.win 2).rect_emb_val_of_index_zero t a hidx j).symm

theorem final2 (c : Dev nD) : (dats m 0 c).arrAt 2 cfg0.N = (outsAt0 m c 999 h999).1 :=
  (dats m 0 c).arrAt_eq_of_cover 2 ((outsAt0 m c 999 h999).1 : Buf (Elt F) ((c : Thread nD τ).loc main_v0_0)) (flushed2_eq m c) fun i =>
    ⟨tLast, (flush0_2 tLast).mpr rfl, by
      show i ∈ ((View.whole main_v0_0).slice (win0_2.rect tLast)).set
      rw [View.set_slice_whole, Rect.mem_set_unit]
      intro a
      have h0 : (i 0 : Nat) < 4 := (i 0).isLt
      have h1 : (i 1 : Nat) < 1600 := (i 1).isLt
      have h2 : (i 2 : Nat) < 352 := (i 2).isLt
      have hb := blk2 tLast
      match a with
      | ⟨0, _⟩ => show win0_2.index tLast 0 * win0_2.size 0 ≤ (i 0 : Nat) ∧ (i 0 : Nat) < win0_2.index tLast 0 * win0_2.size 0 + win0_2.xsize (grid0.coords tLast) 0
                  rw [hb.1, hb.2.1]; omega
      | ⟨1, _⟩ => show win0_2.index tLast 1 * win0_2.size 1 ≤ (i 1 : Nat) ∧ (i 1 : Nat) < win0_2.index tLast 1 * win0_2.size 1 + win0_2.xsize (grid0.coords tLast) 1
                  rw [hb.2.2.1, hb.2.2.2.1]; omega
      | ⟨2, _⟩ => show win0_2.index tLast 2 * win0_2.size 2 ≤ (i 2 : Nat) ∧ (i 2 : Nat) < win0_2.index tLast 2 * win0_2.size 2 + win0_2.xsize (grid0.coords tLast) 2
                  rw [hb.2.2.2.2.1, hb.2.2.2.2.2]; omega⟩

/-! ## The host operations after the region -/

/-- The second result: the counts array flattened. -/
theorem tail_v3 (c : Dev nD) : Pipeline.afterTail₀ cfgs (dats m) 0 (V0 m) [hostOps1] c main_v3
    = shapeCast S563200 ((dats m 0 c).arrAt 3 cfg0.N : Vec F S1600x352 .f32) shapeCasts_S1600x352_S563200 := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.tc.devRef main_v0_1)
    = (dats m 0 c).arrAt 3 cfg0.N from Pipeline.withArrays_arr spec0 launch0.win.arr_inj c _ _ 3]
  rfl

set_option maxHeartbeats 1000000 in
/-- The first result: the sums laid out cell-major, over the flattened counts (a count below one read as one). -/
theorem tail_v8 (c : Dev nD) : Pipeline.afterTail₀ cfgs (dats m) 0 (V0 m) [hostOps1] c main_v8
    = Host.divf (shapeCast S563200x4 (transpose S1600x352x4 [1, 2, 0] ((dats m 0 c).arrAt 2 cfg0.N : Vec F S4x1600x352 .f32) transposes_S4x1600x352_S1600x352x4_1_2_0) shapeCasts_S1600x352x4_S563200x4)
        (broadcastInDim S563200x4 ![0, 1] bcast_S563200x1_S563200x4_0_1 (broadcastInDim S563200x1 ![0] bcast_S563200_S563200x1_0
          (maximumf (shapeCast S563200 ((dats m 0 c).arrAt 3 cfg0.N : Vec F S1600x352 .f32) shapeCasts_S1600x352_S563200)
            (broadcastInDim S563200 ![] bcast_S_S563200 (constant S_ .f32 0x3F800000#32))))) := by
  unfold Pipeline.afterTail₀
  show StableHlo.after hostOps1 _ (Proc.devRef .tc main_v8) = _
  after_results
  rw [show Pipeline.withArrays (cfgs 0).spec c (V0 m c) (fun w => (dats m 0 c).arrAt w (cfgs 0).N) (Proc.tc.devRef main_v0_1)
    = (dats m 0 c).arrAt 3 cfg0.N from Pipeline.withArrays_arr spec0 launch0.win.arr_inj c _ _ 3,
    show Pipeline.withArrays (cfgs 0).spec c (V0 m c) (fun w => (dats m 0 c).arrAt w (cfgs 0).N) (Proc.tc.devRef main_v0_0)
    = (dats m 0 c).arrAt 2 cfg0.N from Pipeline.withArrays_arr spec0 launch0.win.arr_inj c _ _ 2]
  rfl

end AnyValues

/-! ## At the exact values: the segment sums and counts -/

variable (m : (ℓ : Loc nD τ sig) → Buf (Elt Ideal) ℓ) (ρ : Dev nD → PrngReg)

/-- The flattened counts: cell s is row s / 352, column s % 352 of the accumulator, the sum over all blocks of the
    blocks' counts, which is the segment count. -/
theorem cnt_final (c : Dev nD) (hC : InGrid (coorsOf m c)) :
    shapeCast S563200 ((outsAt0 m c 999 h999).2 : Vec Ideal S1600x352 .f32) shapeCasts_S1600x352_S563200 = cntArr (coorsOf m c) := by
  funext i
  have hi : (i 0).val < 563200 := (i 0).isLt
  have hj : (i 0).val / 352 < 1600 := by omega
  have hk : (i 0).val % 352 < 352 := Nat.mod_lt _ (by decide)
  rw [shapeCast_apply _ _ i (ix2 (⟨(i 0).val / 352, hj⟩ : Fin 1600) (⟨(i 0).val % 352, hk⟩ : Fin 352)) (by
    rw [Shape.rowMajor_val_two, Shape.rowMajor_val_one]
    show (i 0).val / 352 * 352 + (i 0).val % 352 = (i 0).val
    omega)]
  rw [cnt_running m c 999 h999 ⟨(i 0).val / 352, hj⟩ ⟨(i 0).val % 352, hk⟩, upTo_last, cnt_bridge _ hC]
  show cntAt _ _ = cntAt _ (i 0)
  refine congrArg (cntAt (coorsOf m c)) (Fin.ext ?_)
  show 352 * ((i 0).val / 352) + (i 0).val % 352 = (i 0).val
  omega

/-- The cell-major sums: entry (s, f) is entry (f, s / 352, s % 352) of the accumulator, the sum over all blocks of
    the blocks' sums of feature f, which is the segment sum. -/
theorem sum_final (c : Dev nD) (hC : InGrid (coorsOf m c)) :
    shapeCast S563200x4 (transpose S1600x352x4 [1, 2, 0] ((outsAt0 m c 999 h999).1 : Vec Ideal S4x1600x352 .f32) transposes_S4x1600x352_S1600x352x4_1_2_0) shapeCasts_S1600x352x4_S563200x4
      = sumArr (coorsOf m c) (featsOf m c) := by
  funext i
  have hi : (i 0).val < 563200 := (i 0).isLt
  have hf : (i 1).val < 4 := (i 1).isLt
  have hj : (i 0).val / 352 < 1600 := by omega
  have hk : (i 0).val % 352 < 352 := Nat.mod_lt _ (by decide)
  rw [shapeCast_apply _ _ i (ix3 (⟨(i 0).val / 352, hj⟩ : Fin 1600) (⟨(i 0).val % 352, hk⟩ : Fin 352) (⟨(i 1).val, hf⟩ : Fin 4)) (by
    rw [Shape.rowMajor_val_three, Shape.rowMajor_val_two]
    show ((i 0).val / 352 * 352 + (i 0).val % 352) * 4 + (i 1).val = (i 0).val * 4 + (i 1).val
    omega)]
  rw [transpose_apply [1, 2, 0] _ _ _ (ix3 (⟨(i 1).val, hf⟩ : Fin 4) (⟨(i 0).val / 352, hj⟩ : Fin 1600) (⟨(i 0).val % 352, hk⟩ : Fin 352))
    (fun b => match b with | ⟨0, _⟩ => rfl | ⟨1, _⟩ => rfl | ⟨2, _⟩ => rfl)]
  rw [sum_running m c 999 h999 ⟨(i 1).val, hf⟩ ⟨(i 0).val / 352, hj⟩ ⟨(i 0).val % 352, hk⟩, upTo_last, sum_bridge _ hC]
  show sumAt _ _ _ _ = sumAt _ _ (i 0) (i 1)
  refine congrArg₂ (sumAt (coorsOf m c) (featsOf m c)) (Fin.ext ?_) (Fin.ext rfl)
  show 352 * ((i 0).val / 352) + (i 0).val % 352 = (i 0).val
  omega

/-- The mean per cell from the cell-major sums and the counts: the sums over the counts, a count below one read as one. -/
def meanOf (S : Vec Ideal S563200x4 .f32) (N : Vec Ideal S563200 .f32) : Vec Ideal S563200x4 .f32 :=
  Host.divf (F := Ideal) S (broadcastInDim S563200x4 ![0, 1] bcast_S563200x1_S563200x4_0_1 (broadcastInDim S563200x1 ![0] bcast_S563200_S563200x1_0
    (maximumf (F := Ideal) N (broadcastInDim S563200 ![] bcast_S_S563200 (constant (F := Ideal) S_ .f32 0x3F800000#32)))))

/-- Neither result buffer is scoped or an array of a window: both are read after the host operations. -/
theorem v8_rest : main_v8 ∈ Pipeline.restRefs sig (cfgs 0).spec :=
  Pipeline.mem_restRefs_of main_v8 rfl (by decide)
theorem v3_rest : main_v3 ∈ Pipeline.restRefs sig (cfgs 0).spec :=
  Pipeline.mem_restRefs_of main_v3 rfl (by decide)

/-- THE RUN, READ: with every coordinate in range, every weakly fair execution ends with the first result at the mean
    of the segment sums over the segment counts, the second at the segment counts, the arguments unchanged. -/
theorem run (hC : ∀ c, InGrid (coorsOf m c)) :
    θ_run defs (onTc (τ := τ) (main (F := Ideal))) ⟨m, fun _ => 0, ρ⟩ fun r => ∀ c : Dev nD,
      r.2.mem ((c.tc : Thread nD τ).loc main_v8) = meanOf (sumArr (coorsOf m c) (featsOf m c)) (cntArr (coorsOf m c))
      ∧ r.2.mem ((c.tc : Thread nD τ).loc main_v3) = cntArr (coorsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v8 v8_rest).trans (by
        rw [tail_v8, final2, final3, sum_final m c (hC c), cnt_final m c (hC c)]; rfl),
      ((h c).2 main_v3 v3_rest).trans (by
        rw [tail_v3, final3, cnt_final m c (hC c)]),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c)))⟩)
    (run_main m ρ)

end Cert.KernelIdeal.KernelResult

end
-- ==== Proof.GridRange.lean ====
/- The precondition, decoded: every point's four coordinate words lie in the grid's ranges.

   The printed predicate is, per point, the conjunction of eight signed comparisons (each coordinate at least zero and
   below its bound 4, 1, 400, 352) with the finiteness of the features. A word that is at least zero and below a small
   bound, read signed, is below that bound read unsigned. -/
import proofs.«408289_j6614249636210_1_alg».proof.Defs
import proofs.«408289_j6614249636210_1_alg».proof.Proof.Gen.Pre_finite_inputs
import proofs.«408289_j6614249636210_1_alg».proof.Proof.VoxelSpec
import Idealize.ShloMosaic.Lib.StableHlo.Predicate

noncomputable section

namespace Cert.Voxel.GridRange

open Cert.Voxel
open Idealize.ShloMosaic Idealize.ShloMosaic.ValueIdx
open Idealize.ShloMosaic.StableHlo.Predicate

/-- A conjunction of two bits is one exactly when both are. -/
private theorem and_bit : ∀ (a b : BitVec 1), IntOp.andi a b = 1#1 ↔ a = 1#1 ∧ b = 1#1 := by decide

/-- A word at least zero, read signed, has its top bit clear: its value is below 2³¹. -/
private theorem small_of_sge_zero (w : BitVec 32) (h0 : IntOp.cmpi .sge w (0#32) = 1#1) : w.toNat < 2 ^ 31 := by
  unfold IntOp.cmpi at h0
  rw [ofBool_eq_one_iff] at h0
  simp only [BitVec.sle, decide_eq_true_eq] at h0
  have hz : (0#32 : BitVec 32).toInt = 0 := by decide
  rw [hz, BitVec.toInt_eq_toNat_cond] at h0
  have hw := w.isLt
  by_contra hc
  rw [if_neg (by omega)] at h0
  omega

/-- A word at least zero and below a small bound, both read signed, is below the bound read unsigned. -/
private theorem toNat_lt_of_signed (w : BitVec 32) (n : Nat) (hn : n < 2 ^ 31) (h0 : IntOp.cmpi .sge w (0#32) = 1#1)
    (h1 : IntOp.cmpi .slt w (BitVec.ofNat 32 n) = 1#1) : w.toNat < n := by
  have hw : w.toNat < 2 ^ 31 := small_of_sge_zero w h0
  have hb : (BitVec.ofNat 32 n).toNat = n := by
    rw [BitVec.toNat_ofNat]; exact Nat.mod_eq_of_lt (by omega)
  have h := (slt_iff_toNat hw (by rw [hb]; exact hn)).1 h1
  rw [hb] at h
  exact h

/-- Column q of the coordinates, sliced out as a [2000000, 1] column, reads at row e the coordinate (e, q). -/
private theorem col_apply (C : Coors) (q : Nat) (hq : q < 4) (hs : Cert.Pre_finite_inputs.S2000000x4.Slices ![0, q] Cert.Pre_finite_inputs.S2000000x1)
    (e : Fin 2000000) :
    extractStridedSlice Cert.Pre_finite_inputs.S2000000x1 ![0, q] C hs (ix2 e 0) = C (ix2 e ⟨q, hq⟩) := by
  unfold extractStridedSlice
  congr 1
  funext a
  match a with
  | ⟨0, _⟩ => exact Fin.ext (by show 0 + e.val = e.val; omega)
  | ⟨1, _⟩ => exact Fin.ext (by show q + 0 = q; omega)

/-- From the precondition's value all ones: every coordinate in range. -/
theorem inGrid_of_pre (X : FVec Ideal Cert.Pre_finite_inputs.S2000000x4 .f32) (C : Coors)
    (h : Cert.Pre_finite_inputs.fn (F := Ideal) X C = fun _ => 1#1) : InGrid C := by
  intro e
  have e0 := congrFun h (ix2 e 0)
  unfold Cert.Pre_finite_inputs.fn Cert.Pre_finite_inputs.fn_part1 at e0
  simp only [andi, cmpi, broadcastInDim, constantI] at e0
  simp only [and_bit] at e0
  obtain ⟨-, ⟨⟨⟨⟨⟨⟨⟨hb0, hb1⟩, hz0⟩, hz1⟩, hy0⟩, hy1⟩, hx0⟩, hx1⟩⟩ := e0
  rw [col_apply C 0 (by decide)] at hb0 hb1
  rw [col_apply C 1 (by decide)] at hz0 hz1
  rw [col_apply C 2 (by decide)] at hy0 hy1
  rw [col_apply C 3 (by decide)] at hx0 hx1
  exact ⟨toNat_lt_of_signed _ 4 (by decide) hb0 hb1, toNat_lt_of_signed _ 1 (by decide) hz0 hz1,
    toNat_lt_of_signed _ 400 (by decide) hy0 hy1, toNat_lt_of_signed _ 352 (by decide) hx0 hx1⟩

end Cert.Voxel.GridRange

end
-- ==== Proof.RefSegmentSum.lean ====
/- The reference program's two scatters, at the exact values: the segment sum and the segment count.

   The reference computes each point's cell word ((b·1 + z)·400 + y)·352 + x on 32-bit words, lays the words out as a
   column of indices, and scatter-adds the feature rows (and a vector of ones) into zero arrays over the 563200 cells.
   An update whose word, read signed, names a cell is added there; any other is dropped. -/
import proofs.«408289_j6614249636210_1_alg».proof.Proof.Gen.ReferenceIdeal.Run
import proofs.«408289_j6614249636210_1_alg».proof.Proof.Gen.ReferenceIdeal.Read
import proofs.«408289_j6614249636210_1_alg».proof.Proof.VoxelSpec
import Idealize.ShloMosaic.Lib.Pipeline.Value
import Idealize.ShloMosaic.PureOps.Ideal.Laws

noncomputable section

namespace Cert.ReferenceIdeal.SegmentSum

open Cert.ReferenceIdeal Cert.ReferenceIdeal.Gen Cert.Voxel Cert.ScatterGather
open Idealize.ShloMosaic Idealize.ShloMosaic.TcCoe Idealize.ShloMosaic.ValueIdx Idealize.SL.Sem
open scoped BigOperators

/-- The column of cell words, as the reference builds it from the coordinate array. -/
def segCol (C : IVec S2000000x4 32) : IVec S2000000x1 32 :=
  broadcastInDim S2000000x1 ![0] bcast_S2000000_S2000000x1_0 (addi (muli (addi (muli (addi (muli (shapeCast _ (extractStridedSlice S2000000x1 ![0, 0] C slices_S2000000x4_S2000000x1_0_0) shapeCasts_S2000000x1_S2000000) (broadcastInDim S2000000 ![] bcast_S_S2000000 (constantI S_ 32 1#32))) (shapeCast _ (extractStridedSlice S2000000x1 ![0, 1] C slices_S2000000x4_S2000000x1_0_1) shapeCasts_S2000000x1_S2000000)) (broadcastInDim S2000000 ![] bcast_S_S2000000 (constantI S_ 32 400#32))) (shapeCast _ (extractStridedSlice S2000000x1 ![0, 2] C slices_S2000000x4_S2000000x1_0_2) shapeCasts_S2000000x1_S2000000)) (broadcastInDim S2000000 ![] bcast_S_S2000000 (constantI S_ 32 352#32))) (shapeCast _ (extractStridedSlice S2000000x1 ![0, 3] C slices_S2000000x4_S2000000x1_0_3) shapeCasts_S2000000x1_S2000000))

/-- The four column reads of the coordinate array, as indices of the array. -/
private theorem idx_col0 (e : Fin 2000000) :
    Read.idx_main_v0 (Read.idx_main_v1 (Read.idx_main_v18 (ix2 e (0 : Fin 1)))) = ix2 e (0 : Fin 4) := by
  funext a
  match a with
  | ⟨0, _⟩ => exact Fin.ext (Nat.div_one _)
  | ⟨1, _⟩ => rfl

private theorem idx_col1 (e : Fin 2000000) :
    Read.idx_main_v2 (Read.idx_main_v3 (Read.idx_main_v18 (ix2 e (0 : Fin 1)))) = ix2 e (1 : Fin 4) := by
  funext a
  match a with
  | ⟨0, _⟩ => exact Fin.ext (Nat.div_one _)
  | ⟨1, _⟩ => rfl

private theorem idx_col2 (e : Fin 2000000) :
    Read.idx_main_v4 (Read.idx_main_v5 (Read.idx_main_v18 (ix2 e (0 : Fin 1)))) = ix2 e (2 : Fin 4) := by
  funext a
  match a with
  | ⟨0, _⟩ => exact Fin.ext (Nat.div_one _)
  | ⟨1, _⟩ => rfl

private theorem idx_col3 (e : Fin 2000000) :
    Read.idx_main_v6 (Read.idx_main_v7 (Read.idx_main_v18 (ix2 e (0 : Fin 1)))) = ix2 e (3 : Fin 4) := by
  funext a
  match a with
  | ⟨0, _⟩ => exact Fin.ext (Nat.div_one _)
  | ⟨1, _⟩ => rfl

/-- Row e of the column is point e's cell word. -/
theorem segCol_apply (C : IVec S2000000x4 32) (e : Fin 2000000) : segCol C (ix2 e 0) = segW C e := by
  have h : segCol C = Read.val_main_v18 (F := Ideal) C := rfl
  rw [h, Read.val_main_v18_apply, Read.val_main_v16_apply, Read.val_main_v15_apply, Read.val_main_v13_apply,
    Read.val_main_v12_apply, Read.val_main_v10_apply, Read.val_main_v9_apply,
    Read.val_main_v1_apply, Read.val_main_v0_apply, Read.val_main_v3_apply, Read.val_main_v2_apply,
    Read.val_main_v5_apply, Read.val_main_v4_apply, Read.val_main_v7_apply, Read.val_main_v6_apply,
    Read.val_main_v8_apply, Read.val_main_v11_apply, Read.val_main_v14_apply,
    Read.val_main_c_apply, Read.val_main_c_0_apply, Read.val_main_c_1_apply,
    idx_col0, idx_col1, idx_col2, idx_col3]
  rfl

/-- The 32-bit word of 1.0 is the real 1. -/
private theorem ofBits_one_f32 : Ideal.ofBits .f32 0x3F800000#32 = 1 := by
  simp [Ideal.ofBits, Ideal.ieee, -EReal.coe_mul]; norm_num

/-- The zero arrays read 0 everywhere, the array of ones reads 1 everywhere. -/
private theorem zeros4_apply (j : S563200x4.Idx) :
    broadcastInDim S563200x4 ![] bcast_S_S563200x4 (constant (F := Ideal) S_ .f32 0x00000000#32) j = 0 := by
  rw [broadcastInDim_apply _ bcast_S_S563200x4 _ j (fun a => a.elim0) (fun a => a.elim0)]
  exact Ideal.ofBits_zero_f32

private theorem zeros1_apply (j : S563200.Idx) :
    broadcastInDim S563200 ![] bcast_S_S563200 (constant (F := Ideal) S_ .f32 0x00000000#32) j = 0 := by
  rw [broadcastInDim_apply _ bcast_S_S563200 _ j (fun a => a.elim0) (fun a => a.elim0)]
  exact Ideal.ofBits_zero_f32

private theorem ones_apply (j : S2000000.Idx) :
    broadcastInDim S2000000 ![] bcast_S_S2000000 (constant (F := Ideal) S_ .f32 0x3F800000#32) j = 1 := by
  rw [broadcastInDim_apply _ bcast_S_S2000000 _ j (fun a => a.elim0) (fun a => a.elim0)]
  exact ofBits_one_f32

/-- The scatter of rows, read at (a, b): the operand there plus the rows of the points whose word names a. -/
private theorem sums_read (x : FVec Ideal S563200x4 .f32) (idx : IVec S2000000x1 32) (upd : FVec Ideal S2000000x4 .f32)
    (a : Fin 563200) (b : Fin 4) :
    Host.scatterAdd (F := Ideal) scatter_S563200x4_S2000000x1_S2000000x4_1_0_0_1 x idx upd (ix2 a b)
      = x (ix2 a b) + ∑ e ∈ Finset.univ.filter (fun e : Fin 2000000 => tgtW 563200 (idx (ix2 e 0)) = some a), upd (ix2 e b) :=
  scatterAdd_rows_apply scatter_S563200x4_S2000000x1_S2000000x4_1_0_0_1 rfl rfl rfl rfl x idx upd a b

/-- The scatter of the feature rows into the zero array is the segment sum. -/
theorem refSums_eq (C : IVec S2000000x4 32) (X : FVec Ideal S2000000x4 .f32) :
    Host.scatterAdd (F := Ideal) scatter_S563200x4_S2000000x1_S2000000x4_1_0_0_1
      (broadcastInDim S563200x4 ![] bcast_S_S563200x4 (constant (F := Ideal) S_ .f32 0x00000000#32)) (segCol C) X = sumArr C X := by
  funext i
  obtain ⟨a, b, rfl⟩ : ∃ (a : Fin 563200) (b : Fin 4), i = ix2 a b := ⟨i 0, i 1, eq_ix2 i⟩
  rw [sums_read, zeros4_apply, zero_add]
  simp only [segCol_apply]
  rfl

/-- The scatter into a vector, read at a: the operand there plus the updates of the points whose word names a. -/
private theorem cnt_read (x : FVec Ideal S563200 .f32) (idx : IVec S2000000x1 32) (upd : FVec Ideal S2000000 .f32)
    (a : Fin 563200) :
    Host.scatterAdd (F := Ideal) scatter_S563200_S2000000x1_S2000000_n_0_0_1 x idx upd (ix1 a)
      = x (ix1 a) + ∑ e ∈ Finset.univ.filter (fun e : Fin 2000000 => tgtW 563200 (idx (ix2 e 0)) = some a), upd (ix1 e) :=
  scatterAdd_vec_apply scatter_S563200_S2000000x1_S2000000_n_0_0_1 rfl rfl rfl rfl x idx upd a

/-- The scatter of ones into the zero vector is the segment count. -/
theorem refCnt_eq (C : IVec S2000000x4 32) :
    Host.scatterAdd (F := Ideal) scatter_S563200_S2000000x1_S2000000_n_0_0_1
      (broadcastInDim S563200 ![] bcast_S_S563200 (constant (F := Ideal) S_ .f32 0x00000000#32)) (segCol C)
      (broadcastInDim S2000000 ![] bcast_S_S2000000 (constant (F := Ideal) S_ .f32 0x3F800000#32)) = cntArr C := by
  funext i
  obtain ⟨a, rfl⟩ : ∃ a : Fin 563200, i = ix1 a := ⟨i 0, eq_ix1 i⟩
  rw [cnt_read, zeros1_apply, zero_add]
  simp only [segCol_apply]
  show _ = cntAt C a
  unfold cntAt
  refine Finset.sum_congr rfl (fun e _ => ?_)
  exact ones_apply (ix1 e)

end Cert.ReferenceIdeal.SegmentSum

end
-- ==== Proof.lean ====
/- The kernel scatters a point cloud's features into a voxel grid by matrix products of indicator matrices, block of
   points by block of points; the reference scatters them point by point with a segment sum. Both then divide each
   cell's sums by its count (a count below one read as one). This certificate shows the two programs compute the same
   means and counts over the extended reals whenever every point's coordinates lie in the grid.

   The frames of the two kernel programs are the generated ones; the reference's frame is its generated run with the
   results dropped. Nothing was rewritten in the idealized kernel, so it preserves the kernel trivially. For the
   equivalence, the kernel's run ends at the mean of the segment sums over the segment counts (its accumulators are
   sums over the blocks, and the blocks' indicator products add up to the segment sums because a cell number splits
   uniquely into a row and a column); the reference's two scatters are those segment sums and counts by definition;
   and the closing divisions are the same term on both sides. -/
import proofs.«408289_j6614249636210_1_alg».proof.Defs
import proofs.«408289_j6614249636210_1_alg».proof.Proof.Gen.Kernel
import proofs.«408289_j6614249636210_1_alg».proof.Proof.Gen.Kernel.Skeleton
import proofs.«408289_j6614249636210_1_alg».proof.Proof.Gen.Kernel.Launch
import proofs.«408289_j6614249636210_1_alg».proof.Proof.Gen.Kernel.Points
import proofs.«408289_j6614249636210_1_alg».proof.Proof.Gen.Kernel.Frame
import proofs.«408289_j6614249636210_1_alg».proof.Proof.Gen.KernelIdeal
import proofs.«408289_j6614249636210_1_alg».proof.Proof.Gen.KernelIdeal.Skeleton
import proofs.«408289_j6614249636210_1_alg».proof.Proof.Gen.KernelIdeal.Launch
import proofs.«408289_j6614249636210_1_alg».proof.Proof.Gen.KernelIdeal.Points
import proofs.«408289_j6614249636210_1_alg».proof.Proof.Gen.KernelIdeal.Frame
import proofs.«408289_j6614249636210_1_alg».proof.Proof.Gen.ReferenceIdeal
import proofs.«408289_j6614249636210_1_alg».proof.Proof.Gen.Pre_finite_inputs
import proofs.«408289_j6614249636210_1_alg».proof.Proof.Gen.ReferenceIdeal.Run
import proofs.«408289_j6614249636210_1_alg».proof.Proof.Gen.ReferenceIdeal.Read
import proofs.«408289_j6614249636210_1_alg».proof.Proof.KernelResult
import proofs.«408289_j6614249636210_1_alg».proof.Proof.GridRange
import proofs.«408289_j6614249636210_1_alg».proof.Proof.RefSegmentSum
import Idealize.ShloMosaic.Adequacy
import Idealize.ShloMosaic.Init

noncomputable section

namespace Cert.Proof

open Idealize.ShloMosaic Idealize.SL.Sem
open Cert.Voxel Cert.KernelIdeal.RunningSum Cert.KernelIdeal.KernelResult

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Under the precondition every coordinate is in range, so the kernel's run ends at the mean of the segment sums
    over the segment counts and at the segment counts; the reference's run ends at the same division applied to its
    two scatters, which are the segment sums and counts of coordinates and features that agree with the kernel's. -/
theorem algebraic : Cert.algebraic_KernelIdeal_ReferenceIdeal := by
  intro m ρ m' ρ' hpre hagree
  have hC : ∀ c, InGrid (coorsOf m c) := fun c => Cert.Voxel.GridRange.inGrid_of_pre _ _ (hpre c)
  refine ⟨fun c => meanOf (sumArr (coorsOf m c) (featsOf m c)) (cntArr (coorsOf m c)), fun c => cntArr (coorsOf m c),
    Cert.KernelIdeal.KernelResult.run m ρ hC, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · have hs := Cert.ReferenceIdeal.SegmentSum.refSums_eq (coorsOf m c) (featsOf m c)
    have hn := Cert.ReferenceIdeal.SegmentSum.refCnt_eq (coorsOf m c)
    unfold Cert.ReferenceIdeal.SegmentSum.segCol at hs hn
    rw [(hagree c).1, (hagree c).2, hs, hn]
    rfl
  · have hn := Cert.ReferenceIdeal.SegmentSum.refCnt_eq (coorsOf m c)
    unfold Cert.ReferenceIdeal.SegmentSum.segCol at hn
    rw [(hagree c).2, hn]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
